-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S131072x32 : Shape := ⟨2, ![131072, 32]⟩
abbrev S131072x2 : Shape := ⟨2, ![131072, 2]⟩
abbrev S64x512 : Shape := ⟨2, ![64, 512]⟩
abbrev S512 : Shape := ⟨1, ![512]⟩
abbrev S32x256 : Shape := ⟨2, ![32, 256]⟩
abbrev S256 : Shape := ⟨1, ![256]⟩
abbrev S512x64 : Shape := ⟨2, ![512, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S131072x32 : S_.BroadcastsInDim S131072x32 (![] : Fin 0 → Fin S131072x32.rank)
  reducesTo_S131072x32_S_d0_1 : S131072x32.ReducesTo [0, 1] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S131072x2 : S_.BroadcastsInDim S131072x2 (![] : Fin 0 → Fin S131072x2.rank)
  reducesTo_S131072x2_S_d0_1 : S131072x2.ReducesTo [0, 1] S_

variable [Facts]

def fn_part2 {F : FTy → Type} [FloatOps F] (main_arg2 : IVec S131072x2 32) (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S131072x2 32 := broadcastInDim S131072x2 ![] bcast_S_S131072x2 main_c_14
  let main_v40 : IVec S131072x2 1 := cmpi .sge main_arg2 main_v39
  let main_c_15 : IVec S_ 32 := constantI S_ 32 16384#32
  let main_v41 : IVec S131072x2 32 := broadcastInDim S131072x2 ![] bcast_S_S131072x2 main_c_15
  let main_v42 : IVec S131072x2 1 := cmpi .slt main_arg2 main_v41
  let main_v43 : IVec S131072x2 1 := andi main_v40 main_v42
  let main_c_16 : IVec S_ 1 := constantI S_ 1 1#1
  let main_v44 : IVec S_ 1 := (fun x v => Host.reduce IntOp.andi x v reducesTo_S131072x2_S_d0_1 h_S_) main_v43 main_c_16
  let main_v45 : IVec S_ 1 := andi main_v38 main_v44
  main_v45

def fn_part1 {F : FTy → Type} [FloatOps F] (main_arg2 : IVec S131072x2 32) (main_arg5 : FVec F S32x256 .f32) (main_arg6 : FVec F S256 .f32) (main_arg7 : FVec F S512x64 .f32) (main_arg8 : FVec F S64 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S32x256 .f32 := Host.absf main_arg5
  let main_cst_6 : FVec F S_ .f32 := constant S_ .f32 0x7F800000#32
  let main_v20 : FVec F S32x256 .f32 := broadcastInDim S32x256 ![] bcast_S_S32x256 main_cst_6
  let main_v21 : IVec S32x256 1 := cmpf .olt main_v19 main_v20
  let main_c_7 : IVec S_ 1 := constantI S_ 1 1#1
  let main_v22 : IVec S_ 1 := (fun x v => Host.reduce IntOp.andi x v reducesTo_S32x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x64 .f32 := Host.absf main_arg7
  let main_cst_10 : FVec F S_ .f32 := constant S_ .f32 0x7F800000#32
  let main_v30 : FVec F S512x64 .f32 := broadcastInDim S512x64 ![] bcast_S_S512x64 main_cst_10
  let main_v31 : IVec S512x64 1 := cmpf .olt main_v29 main_v30
  let main_c_11 : IVec S_ 1 := constantI S_ 1 1#1
  let main_v32 : IVec S_ 1 := (fun x v => Host.reduce IntOp.andi x v reducesTo_S512x64_S_d0_1 h_S_) main_v31 main_c_11
  let main_v33 : IVec S_ 1 := andi main_v28 main_v32
  fn_part2 (F := F) main_arg2 main_arg8 main_v33

def fn {F : FTy → Type} [FloatOps F] (main_arg0 : FVec F S16384x64 .f32) (main_arg1 : FVec F S131072x32 .f32) (main_arg2 : IVec S131072x2 32) (main_arg3 : FVec F S64x512 .f32) (main_arg4 : FVec F S512 .f32) (main_arg5 : FVec F S32x256 .f32) (main_arg6 : FVec F S256 .f32) (main_arg7 : FVec F S512x64 .f32) (main_arg8 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S131072x32 .f32 := Host.absf main_arg1
  let main_cst_0 : FVec F S_ .f32 := constant S_ .f32 0x7F800000#32
  let main_v5 : FVec F S131072x32 .f32 := broadcastInDim S131072x32 ![] bcast_S_S131072x32 main_cst_0
  let main_v6 : IVec S131072x32 1 := cmpf .olt main_v4 main_v5
  let main_c_1 : IVec S_ 1 := constantI S_ 1 1#1
  let main_v7 : IVec S_ 1 := (fun x v => Host.reduce IntOp.andi x v reducesTo_S131072x32_S_d0_1 h_S_) main_v6 main_c_1
  let main_v8 : IVec S_ 1 := andi main_v3 main_v7
  let main_v9 : FVec F S64x512 .f32 := Host.absf main_arg3
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg2 main_arg5 main_arg6 main_arg7 main_arg8 main_v13 main_v16
-- ==== Kernel.lean ====
abbrev S16384x64 : Shape := ⟨2, ![16384, 64]⟩
abbrev S131072x32 : Shape := ⟨2, ![131072, 32]⟩
abbrev S131072x2 : Shape := ⟨2, ![131072, 2]⟩
abbrev S64x512 : Shape := ⟨2, ![64, 512]⟩
abbrev S512 : Shape := ⟨1, ![512]⟩
abbrev S32x256 : Shape := ⟨2, ![32, 256]⟩
abbrev S256 : Shape := ⟨1, ![256]⟩
abbrev S512x64 : Shape := ⟨2, ![512, 64]⟩
abbrev S64 : Shape := ⟨1, ![64]⟩
abbrev S131072x1 : Shape := ⟨2, ![131072, 1]⟩
abbrev S131072 : Shape := ⟨1, ![131072]⟩
abbrev S1x512 : Shape := ⟨2, ![1, 512]⟩
abbrev S16384x512 : Shape := ⟨2, ![16384, 512]⟩
abbrev S2048x64 : Shape := ⟨2, ![2048, 64]⟩
abbrev S2048x512 : Shape := ⟨2, ![2048, 512]⟩
abbrev S1x256 : Shape := ⟨2, ![1, 256]⟩
abbrev S131072x8 : Shape := ⟨2, ![131072, 8]⟩
abbrev S4096x32 : Shape := ⟨2, ![4096, 32]⟩
abbrev S4096x8 : Shape := ⟨2, ![4096, 8]⟩
abbrev S4096x256 : Shape := ⟨2, ![4096, 256]⟩
abbrev S4096 : Shape := ⟨1, ![4096]⟩
abbrev S4096x1 : Shape := ⟨2, ![4096, 1]⟩
abbrev S_ : Shape := ⟨0, ![]⟩
abbrev S1 : Shape := ⟨1, ![1]⟩
abbrev S1x1 : Shape := ⟨2, ![1, 1]⟩
abbrev S131072x512 : Shape := ⟨2, ![131072, 512]⟩
abbrev S131072x8x64 : Shape := ⟨3, ![131072, 8, 64]⟩
abbrev S16384x8 : Shape := ⟨2, ![16384, 8]⟩
abbrev S131072x8x1 : Shape := ⟨3, ![131072, 8, 1]⟩
abbrev S16384x8x64 : Shape := ⟨3, ![16384, 8, 64]⟩
abbrev S16384x8x1 : Shape := ⟨3, ![16384, 8, 1]⟩
abbrev S1x64 : Shape := ⟨2, ![1, 64]⟩

abbrev nBuf : Space → Nat
  | .hbm => 100
  | .vmem => 18
  | .smem => 0
  | _ => 0

abbrev bufTy : (tb : Table) → Fin (tcTables nBuf tb) → BufTy
  | .hbm, ⟨0, _⟩ => ⟨S16384x64, .f32⟩
  | .hbm, ⟨1, _⟩ => ⟨S131072x32, .f32⟩
  | .hbm, ⟨2, _⟩ => ⟨S131072x2, .i32⟩
  | .hbm, ⟨3, _⟩ => ⟨S64x512, .f32⟩
  | .hbm, ⟨4, _⟩ => ⟨S512, .f32⟩
  | .hbm, ⟨5, _⟩ => ⟨S32x256, .f32⟩
  | .hbm, ⟨6, _⟩ => ⟨S256, .f32⟩
  | .hbm, ⟨7, _⟩ => ⟨S512x64, .f32⟩
  | .hbm, ⟨8, _⟩ => ⟨S64, .f32⟩
  | .hbm, ⟨9, _⟩ => ⟨S131072x1, .i32⟩
  | .hbm, ⟨10, _⟩ => ⟨S131072, .i32⟩
  | .hbm, ⟨11, _⟩ => ⟨S131072x1, .i32⟩
  | .hbm, ⟨12, _⟩ => ⟨S131072, .i32⟩
  | .hbm, ⟨13, _⟩ => ⟨S1x512, .f32⟩
  | .hbm, ⟨14, _⟩ => ⟨S16384x512, .f32⟩
  | .hbm, ⟨15, _⟩ => ⟨S1x256, .f32⟩
  | .hbm, ⟨16, _⟩ => ⟨S131072x8, .f32⟩
  | .hbm, ⟨17, _⟩ => ⟨S_, .i32⟩
  | .hbm, ⟨18, _⟩ => ⟨S131072, .i32⟩
  | .hbm, ⟨19, _⟩ => ⟨S131072, .i1⟩
  | .hbm, ⟨20, _⟩ => ⟨S_, .i32⟩
  | .hbm, ⟨21, _⟩ => ⟨S131072, .i32⟩
  | .hbm, ⟨22, _⟩ => ⟨S131072, .i32⟩
  | .hbm, ⟨23, _⟩ => ⟨S131072, .i32⟩
  | .hbm, ⟨24, _⟩ => ⟨S131072x1, .i32⟩
  | .hbm, ⟨25, _⟩ => ⟨S1, .i32⟩
  | .hbm, ⟨26, _⟩ => ⟨S_, .i32⟩
  | .hbm, ⟨27, _⟩ => ⟨S131072x1, .i32⟩
  | .hbm, ⟨28, _⟩ => ⟨S131072x1, .i1⟩
  | .hbm, ⟨29, _⟩ => ⟨S1x1, .i32⟩
  | .hbm, ⟨30, _⟩ => ⟨S131072x1, .i32⟩
  | .hbm, ⟨31, _⟩ => ⟨S131072x1, .i1⟩
  | .hbm, ⟨32, _⟩ => ⟨S131072x1, .i1⟩
  | .hbm, ⟨33, _⟩ => ⟨S_, .i1⟩
  | .hbm, ⟨34, _⟩ => ⟨S131072, .i1⟩
  | .hbm, ⟨35, _⟩ => ⟨S131072x512, .f32⟩
  | .hbm, ⟨36, _⟩ => ⟨S131072x512, .i1⟩
  | .hbm, ⟨37, _⟩ => ⟨S_, .f32⟩
  | .hbm, ⟨38, _⟩ => ⟨S131072x512, .f32⟩
  | .hbm, ⟨39, _⟩ => ⟨S131072x512, .f32⟩
  | .hbm, ⟨40, _⟩ => ⟨S131072x8x64, .f32⟩
  | .hbm, ⟨41, _⟩ => ⟨S_, .i32⟩
  | .hbm, ⟨42, _⟩ => ⟨S131072, .i32⟩
  | .hbm, ⟨43, _⟩ => ⟨S131072, .i1⟩
  | .hbm, ⟨44, _⟩ => ⟨S_, .i32⟩
  | .hbm, ⟨45, _⟩ => ⟨S131072, .i32⟩
  | .hbm, ⟨46, _⟩ => ⟨S131072, .i32⟩
  | .hbm, ⟨47, _⟩ => ⟨S131072, .i32⟩
  | .hbm, ⟨48, _⟩ => ⟨S131072x1, .i32⟩
  | .hbm, ⟨49, _⟩ => ⟨S1, .i32⟩
  | .hbm, ⟨50, _⟩ => ⟨S_, .i32⟩
  | .hbm, ⟨51, _⟩ => ⟨S131072x1, .i32⟩
  | .hbm, ⟨52, _⟩ => ⟨S131072x1, .i1⟩
  | .hbm, ⟨53, _⟩ => ⟨S1x1, .i32⟩
  | .hbm, ⟨54, _⟩ => ⟨S131072x1, .i32⟩
  | .hbm, ⟨55, _⟩ => ⟨S131072x1, .i1⟩
  | .hbm, ⟨56, _⟩ => ⟨S131072x1, .i1⟩
  | .hbm, ⟨57, _⟩ => ⟨S_, .i1⟩
  | .hbm, ⟨58, _⟩ => ⟨S131072, .i1⟩
  | .hbm, ⟨59, _⟩ => ⟨S131072x512, .f32⟩
  | .hbm, ⟨60, _⟩ => ⟨S131072x512, .i1⟩
  | .hbm, ⟨61, _⟩ => ⟨S_, .f32⟩
  | .hbm, ⟨62, _⟩ => ⟨S131072x512, .f32⟩
  | .hbm, ⟨63, _⟩ => ⟨S131072x512, .f32⟩
  | .hbm, ⟨64, _⟩ => ⟨S131072x8x64, .f32⟩
  | .hbm, ⟨65, _⟩ => ⟨S_, .f32⟩
  | .hbm, ⟨66, _⟩ => ⟨S131072x8, .f32⟩
  | .hbm, ⟨67, _⟩ => ⟨S_, .f32⟩
  | .hbm, ⟨68, _⟩ => ⟨S131072x8, .f32⟩
  | .hbm, ⟨69, _⟩ => ⟨S131072x8, .f32⟩
  | .hbm, ⟨70, _⟩ => ⟨S131072x8, .f32⟩
  | .hbm, ⟨71, _⟩ => ⟨S_, .f32⟩
  | .hbm, ⟨72, _⟩ => ⟨S131072x8, .f32⟩
  | .hbm, ⟨73, _⟩ => ⟨S131072x8, .f32⟩
  | .hbm, ⟨74, _⟩ => ⟨S_, .f32⟩
  | .hbm, ⟨75, _⟩ => ⟨S_, .f32⟩
  | .hbm, ⟨76, _⟩ => ⟨S131072x8, .f32⟩
  | .hbm, ⟨77, _⟩ => ⟨S131072x8, .i1⟩
  | .hbm, ⟨78, _⟩ => ⟨S_, .f32⟩
  | .hbm, ⟨79, _⟩ => ⟨S131072x8, .f32⟩
  | .hbm, ⟨80, _⟩ => ⟨S131072x8, .f32⟩
  | .hbm, ⟨81, _⟩ => ⟨S131072x8, .f32⟩
  | .hbm, ⟨82, _⟩ => ⟨S131072x8, .f32⟩
  | .hbm, ⟨83, _⟩ => ⟨S_, .f32⟩
  | .hbm, ⟨84, _⟩ => ⟨S16384x8, .f32⟩
  | .hbm, ⟨85, _⟩ => ⟨S131072x1, .i32⟩
  | .hbm, ⟨86, _⟩ => ⟨S16384x8, .f32⟩
  | .hbm, ⟨87, _⟩ => ⟨S131072x8x1, .f32⟩
  | .hbm, ⟨88, _⟩ => ⟨S131072x8x64, .f32⟩
  | .hbm, ⟨89, _⟩ => ⟨S131072x8x64, .f32⟩
  | .hbm, ⟨90, _⟩ => ⟨S_, .f32⟩
  | .hbm, ⟨91, _⟩ => ⟨S16384x8x64, .f32⟩
  | .hbm, ⟨92, _⟩ => ⟨S131072x1, .i32⟩
  | .hbm, ⟨93, _⟩ => ⟨S16384x8x64, .f32⟩
  | .hbm, ⟨94, _⟩ => ⟨S16384x8x1, .f32⟩
  | .hbm, ⟨95, _⟩ => ⟨S16384x8x64, .f32⟩
  | .hbm, ⟨96, _⟩ => ⟨S16384x8x64, .f32⟩
  | .hbm, ⟨97, _⟩ => ⟨S16384x512, .f32⟩
  | .hbm, ⟨98, _⟩ => ⟨S1x64, .f32⟩
  | .hbm, ⟨99, _⟩ => ⟨S16384x64, .f32⟩
  | .local _ .vmem, ⟨0, _⟩ => ⟨S2048x64, .f32⟩
  | .local _ .vmem, ⟨1, _⟩ => ⟨S2048x64, .f32⟩
  | .local _ .vmem, ⟨2, _⟩ => ⟨S64x512, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S4096x32, .f32⟩
  | .local _ .vmem, ⟨7, _⟩ => ⟨S4096x32, .f32⟩
  | .local _ .vmem, ⟨8, _⟩ => ⟨S32x256, .f32⟩
  | .local _ .vmem, ⟨9, _⟩ => ⟨S1x256, .f32⟩
  | .local _ .vmem, ⟨10, _⟩ => ⟨S4096x8, .f32⟩
  | .local _ .vmem, ⟨11, _⟩ => ⟨S4096x8, .f32⟩
  | .local _ .vmem, ⟨12, _⟩ => ⟨S2048x512, .f32⟩
  | .local _ .vmem, ⟨13, _⟩ => ⟨S2048x512, .f32⟩
  | .local _ .vmem, ⟨14, _⟩ => ⟨S512x64, .f32⟩
  | .local _ .vmem, ⟨15, _⟩ => ⟨S1x64, .f32⟩
  | .local _ .vmem, ⟨16, _⟩ => ⟨S2048x64, .f32⟩
  | .local _ .vmem, ⟨17, _⟩ => ⟨S2048x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v8 : Ref sig .tc := ⟨.hbm, 39, rfl⟩
abbrev main_v9 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v10 : Ref sig .tc := ⟨.hbm, 63, rfl⟩
abbrev main_v11 : Ref sig .tc := ⟨.hbm, 64, rfl⟩
abbrev main_cst : Ref sig .tc := ⟨.hbm, 65, rfl⟩
abbrev main_v12 : Ref sig .tc := ⟨.hbm, 66, rfl⟩
abbrev main_cst_0 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_cst_1 : Ref sig .tc := ⟨.hbm, 71, rfl⟩
abbrev main_v16 : Ref sig .tc := ⟨.hbm, 72, rfl⟩
abbrev main_v17 : Ref sig .tc := ⟨.hbm, 73, rfl⟩
abbrev main_cst_2 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v18 : Ref sig .tc := ⟨.hbm, 81, rfl⟩
abbrev main_v19 : Ref sig .tc := ⟨.hbm, 82, rfl⟩
abbrev main_cst_3 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_cst_4 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S131072x2_S131072x1_0_0 : S131072x2.Slices ![0, 0] S131072x1
  shapeCasts_S131072x1_S131072 : S131072x1.ShapeCasts S131072
  slices_S131072x2_S131072x1_0_1 : S131072x2.Slices ![0, 1] S131072x1
  shapeCasts_S512_S1x512 : S512.ShapeCasts S1x512
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S256_S1x256 : S256.ShapeCasts S1x256
  inb_S4096x32_S4096x32_0_0 : ∀ a, (![0, 0] : Fin 2 → Nat) a + S4096x32.size a ≤ S4096x32.size a
  h_S4096x32 : 0 < S4096x32.numel
  inb_S32x256_S32x256_0_0 : ∀ a, (![0, 0] : Fin 2 → Nat) a + S32x256.size a ≤ S32x256.size a
  h_S32x256 : 0 < S32x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  slices_S4096x256_o0_0_S4096x32 : S4096x256.Slices ![0, 0] S4096x32
  reduces_S4096x32_S4096 : S4096x32.Reduces [1] S4096
  shapeCasts_S4096_S4096x1 : S4096.ShapeCasts S4096x1
  slices_S4096x256_o0_32_S4096x32 : S4096x256.Slices ![0, 32] S4096x32
  slices_S4096x256_o0_64_S4096x32 : S4096x256.Slices ![0, 64] S4096x32
  slices_S4096x256_o0_96_S4096x32 : S4096x256.Slices ![0, 96] S4096x32
  slices_S4096x256_o0_128_S4096x32 : S4096x256.Slices ![0, 128] S4096x32
  slices_S4096x256_o0_160_S4096x32 : S4096x256.Slices ![0, 160] S4096x32
  slices_S4096x256_o0_192_S4096x32 : S4096x256.Slices ![0, 192] S4096x32
  slices_S4096x256_o0_224_S4096x32 : S4096x256.Slices ![0, 224] S4096x32
  concatenates_S4096x1_S4096x1_S4096x1_S4096x1_S4096x1_S4096x1_S4096x1_S4096x1_S4096x8_d1 : Shape.Concatenates [S4096x1, S4096x1, S4096x1, S4096x1, S4096x1, S4096x1, S4096x1, S4096x1] S4096x8 1
  inb_S4096x8_S4096x8_0_0 : ∀ a, (![0, 0] : Fin 2 → Nat) a + S4096x8.size a ≤ S4096x8.size a
  h_S4096x8 : 0 < S4096x8.numel
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  h_S_ : 0 < S_.numel
  bcast_S131072_S131072x512_0 : S131072.BroadcastsInDim S131072x512 (![0] : Fin 1 → Fin S131072x512.rank)
  bcast_S_S131072x512 : S_.BroadcastsInDim S131072x512 (![] : Fin 0 → Fin S131072x512.rank)
  shapeCasts_S131072x512_S131072x8x64 : S131072x512.ShapeCasts S131072x8x64
  reducesTo_S131072x8x64_S131072x8_d2 : S131072x8x64.ReducesTo [2] S131072x8
  bcast_S_S131072x8 : S_.BroadcastsInDim S131072x8 (![] : Fin 0 → Fin S131072x8.rank)
  bcast_S_S16384x8 : S_.BroadcastsInDim S16384x8 (![] : Fin 0 → Fin S16384x8.rank)
  bcast_S131072x8_S131072x8x1_0_1 : S131072x8.BroadcastsInDim S131072x8x1 (![0, 1] : Fin 2 → Fin S131072x8x1.rank)
  bcast_S131072x8x1_S131072x8x64_0_1_2 : S131072x8x1.BroadcastsInDim S131072x8x64 (![0, 1, 2] : Fin 3 → Fin S131072x8x64.rank)
  bcast_S_S16384x8x64 : S_.BroadcastsInDim S16384x8x64 (![] : Fin 0 → Fin S16384x8x64.rank)
  bcast_S16384x8_S16384x8x1_0_1 : S16384x8.BroadcastsInDim S16384x8x1 (![0, 1] : Fin 2 → Fin S16384x8x1.rank)
  bcast_S16384x8x1_S16384x8x64_0_1_2 : S16384x8x1.BroadcastsInDim S16384x8x64 (![0, 1, 2] : Fin 3 → Fin S16384x8x64.rank)
  shapeCasts_S16384x8x64_S16384x512 : S16384x8x64.ShapeCasts S16384x512
  shapeCasts_S64_S1x64 : S64.ShapeCasts S1x64
  shapeCasts_S2048x512_S2048x512 : S2048x512.ShapeCasts S2048x512
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  dot_S2048x64_S64x512_S2048x512_1_0_0_1_n_n_wf : DotDims.WF S2048x64 S64x512 S2048x512 [1] [0] [0] [1] [] []
  dot_S4096x32_S32x256_S4096x256_1_0_0_1_n_n_wf : DotDims.WF S4096x32 S32x256 S4096x256 [1] [0] [0] [1] [] []
  gather_S16384x512_S131072x1_S131072x512_1_0_n_n_0_1_1512_wf : GatherDims.WF S16384x512 S131072x1 S131072x512 [1] [0] [] [0] [] 1 ![1, 512]
  scatter_S16384x8_S131072x1_S131072x8_1_0_0_1_wf : ScatterDims.WF S16384x8 S131072x1 S131072x8 [1] [0] [0] 1
  scatter_S16384x8x64_S131072x1_S131072x8x64_12_0_0_1_wf : ScatterDims.WF S16384x8x64 S131072x1 S131072x8x64 [1, 2] [0] [0] 1
  dot_S2048x512_S512x64_S2048x64_1_0_0_1_n_n_wf : DotDims.WF S2048x512 S512x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S16384x512.size a
  hwx0_3 : ∀ i : grid0.Coords, EltTy.bits .f32 = 32 ∨ (Rect.block (s := S16384x512) S2048x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x32.size a ≤ S131072x32.size a
  hwx1_0 : ∀ i : grid1.Coords, EltTy.bits .f32 = 32 ∨ (Rect.block (s := S131072x32) S4096x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x256.size a ≤ S32x256.size a
  hwx1_1 : ∀ i : grid1.Coords, EltTy.bits .f32 = 32 ∨ (Rect.block (s := S32x256) S32x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x8.size a ≤ S131072x8.size a
  hwx1_3 : ∀ i : grid1.Coords, EltTy.bits .f32 = 32 ∨ (Rect.block (s := S131072x8) S4096x8.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S16384x512.size a
  hwx2_0 : ∀ i : grid2.Coords, EltTy.bits .f32 = 32 ∨ (Rect.block (s := S16384x512) S2048x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S512x64.size a
  hwx2_1 : ∀ i : grid2.Coords, EltTy.bits .f32 = 32 ∨ (Rect.block (s := S512x64) S512x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S16384x64.size a
  hwx2_3 : ∀ i : grid2.Coords, EltTy.bits .f32 = 32 ∨ (Rect.block (s := S16384x64) S2048x64.size (cc2_transform_3 i) (hinb2_3 i)).WholeWords (EltTy.packing .f32)

variable [Facts₀]

def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S4096x32_S32x256_S4096x256_1_0_0_1_n_n : DotDims S4096x32 S32x256 S4096x256 where
  lhsContracting := [1]
  rhsContracting := [0]
  lhsNonContracting := [0]
  rhsNonContracting := [1]
  lhsBatch := []
  rhsBatch := []
  wf := dot_S4096x32_S32x256_S4096x256_1_0_0_1_n_n_wf
def gather_S16384x512_S131072x1_S131072x512_1_0_n_n_0_1_1512 : GatherDims S16384x512 S131072x1 S131072x512 where
  offsetDims := [1]
  collapsedSliceDims := [0]
  operandBatchingDims := []
  startIndicesBatchingDims := []
  startIndexMap := [0]
  indexVectorDim := 1
  sliceSizes := ![1, 512]
  wf := gather_S16384x512_S131072x1_S131072x512_1_0_n_n_0_1_1512_wf
def scatter_S16384x8_S131072x1_S131072x8_1_0_0_1 : ScatterDims S16384x8 S131072x1 S131072x8 where
  updateWindowDims := [1]
  insertedWindowDims := [0]
  scatterDimsToOperandDims := [0]
  indexVectorDim := 1
  wf := scatter_S16384x8_S131072x1_S131072x8_1_0_0_1_wf
def scatter_S16384x8x64_S131072x1_S131072x8x64_12_0_0_1 : ScatterDims S16384x8x64 S131072x1 S131072x8x64 where
  updateWindowDims := [1, 2]
  insertedWindowDims := [0]
  scatterDimsToOperandDims := [0]
  indexVectorDim := 1
  wf := scatter_S16384x8x64_S131072x1_S131072x8x64_12_0_0_1_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4096x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S4096x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v32) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S2048x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16384x64 : Shape := ⟨2, ![16384, 64]⟩
abbrev S131072x32 : Shape := ⟨2, ![131072, 32]⟩
abbrev S131072x2 : Shape := ⟨2, ![131072, 2]⟩
abbrev S64x512 : Shape := ⟨2, ![64, 512]⟩
abbrev S512 : Shape := ⟨1, ![512]⟩
abbrev S32x256 : Shape := ⟨2, ![32, 256]⟩
abbrev S256 : Shape := ⟨1, ![256]⟩
abbrev S512x64 : Shape := ⟨2, ![512, 64]⟩
abbrev S64 : Shape := ⟨1, ![64]⟩
abbrev S131072x1 : Shape := ⟨2, ![131072, 1]⟩
abbrev S131072 : Shape := ⟨1, ![131072]⟩
abbrev S16384x512 : Shape := ⟨2, ![16384, 512]⟩
abbrev S1x512 : Shape := ⟨2, ![1, 512]⟩
abbrev S131072x256 : Shape := ⟨2, ![131072, 256]⟩
abbrev S1x256 : Shape := ⟨2, ![1, 256]⟩
abbrev S131072x8x32 : Shape := ⟨3, ![131072, 8, 32]⟩
abbrev S_ : Shape := ⟨0, ![]⟩
abbrev S131072x512 : Shape := ⟨2, ![131072, 512]⟩
abbrev S131072x8x64 : Shape := ⟨3, ![131072, 8, 64]⟩
abbrev S131072x8 : Shape := ⟨2, ![131072, 8]⟩
abbrev S16384x8 : Shape := ⟨2, ![16384, 8]⟩
abbrev S131072x8x1 : Shape := ⟨3, ![131072, 8, 1]⟩
abbrev S16384x8x64 : Shape := ⟨3, ![16384, 8, 64]⟩
abbrev S16384x8x1 : Shape := ⟨3, ![16384, 8, 1]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S131072x32, .f32⟩
  | .hbm, ⟨2, _⟩ => ⟨S131072x2, .i32⟩
  | .hbm, ⟨3, _⟩ => ⟨S64x512, .f32⟩
  | .hbm, ⟨4, _⟩ => ⟨S512, .f32⟩
  | .hbm, ⟨5, _⟩ => ⟨S32x256, .f32⟩
  | .hbm, ⟨6, _⟩ => ⟨S256, .f32⟩
  | .hbm, ⟨7, _⟩ => ⟨S512x64, .f32⟩
  | .hbm, ⟨8, _⟩ => ⟨S64, .f32⟩
  | .hbm, ⟨9, _⟩ => ⟨S131072x1, .i32⟩
  | .hbm, ⟨10, _⟩ => ⟨S131072, .i32⟩
  | .hbm, ⟨11, _⟩ => ⟨S131072x1, .i32⟩
  | .hbm, ⟨12, _⟩ => ⟨S131072, .i32⟩
  | .hbm, ⟨13, _⟩ => ⟨S16384x512, .f32⟩
  | .hbm, ⟨14, _⟩ => ⟨S1x512, .f32⟩
  | .hbm, ⟨15, _⟩ => ⟨S16384x512, .f32⟩
  | .hbm, ⟨16, _⟩ => ⟨S16384x512, .f32⟩
  | .hbm, ⟨17, _⟩ => ⟨S131072x256, .f32⟩
  | .hbm, ⟨18, _⟩ => ⟨S1x256, .f32⟩
  | .hbm, ⟨19, _⟩ => ⟨S131072x256, .f32⟩
  | .hbm, ⟨20, _⟩ => ⟨S131072x256, .f32⟩
  | .hbm, ⟨21, _⟩ => ⟨S131072x8x32, .f32⟩
  | .hbm, ⟨22, _⟩ => ⟨S_, .i32⟩
  | .hbm, ⟨23, _⟩ => ⟨S131072, .i32⟩
  | .hbm, ⟨24, _⟩ => ⟨S131072, .i1⟩
  | .hbm, ⟨25, _⟩ => ⟨S_, .i32⟩
  | .hbm, ⟨26, _⟩ => ⟨S131072, .i32⟩
  | .hbm, ⟨27, _⟩ => ⟨S131072, .i32⟩
  | .hbm, ⟨28, _⟩ => ⟨S131072, .i32⟩
  | .hbm, ⟨29, _⟩ => ⟨S131072x1, .i32⟩
  | .hbm, ⟨30, _⟩ => ⟨S131072x512, .f32⟩
  | .hbm, ⟨31, _⟩ => ⟨S131072x8x64, .f32⟩
  | .hbm, ⟨32, _⟩ => ⟨S_, .i32⟩
  | .hbm, ⟨33, _⟩ => ⟨S131072, .i32⟩
  | .hbm, ⟨34, _⟩ => ⟨S131072, .i1⟩
  | .hbm, ⟨35, _⟩ => ⟨S_, .i32⟩
  | .hbm, ⟨36, _⟩ => ⟨S131072, .i32⟩
  | .hbm, ⟨37, _⟩ => ⟨S131072, .i32⟩
  | .hbm, ⟨38, _⟩ => ⟨S131072, .i32⟩
  | .hbm, ⟨39, _⟩ => ⟨S131072x1, .i32⟩
  | .hbm, ⟨40, _⟩ => ⟨S131072x512, .f32⟩
  | .hbm, ⟨41, _⟩ => ⟨S131072x8x64, .f32⟩
  | .hbm, ⟨42, _⟩ => ⟨S_, .f32⟩
  | .hbm, ⟨43, _⟩ => ⟨S131072x8, .f32⟩
  | .hbm, ⟨44, _⟩ => ⟨S_, .f32⟩
  | .hbm, ⟨45, _⟩ => ⟨S131072x8, .f32⟩
  | .hbm, ⟨46, _⟩ => ⟨S131072x8, .f32⟩
  | .hbm, ⟨47, _⟩ => ⟨S_, .f32⟩
  | .hbm, ⟨48, _⟩ => ⟨S131072x8, .f32⟩
  | .hbm, ⟨49, _⟩ => ⟨S131072x8, .f32⟩
  | .hbm, ⟨50, _⟩ => ⟨S_, .f32⟩
  | .hbm, ⟨51, _⟩ => ⟨S131072x8, .f32⟩
  | .hbm, ⟨52, _⟩ => ⟨S131072x8, .f32⟩
  | .hbm, ⟨53, _⟩ => ⟨S_, .f32⟩
  | .hbm, ⟨54, _⟩ => ⟨S_, .f32⟩
  | .hbm, ⟨55, _⟩ => ⟨S131072x8, .f32⟩
  | .hbm, ⟨56, _⟩ => ⟨S131072x8, .i1⟩
  | .hbm, ⟨57, _⟩ => ⟨S_, .f32⟩
  | .hbm, ⟨58, _⟩ => ⟨S131072x8, .f32⟩
  | .hbm, ⟨59, _⟩ => ⟨S131072x8, .f32⟩
  | .hbm, ⟨60, _⟩ => ⟨S131072x8, .f32⟩
  | .hbm, ⟨61, _⟩ => ⟨S131072x8, .f32⟩
  | .hbm, ⟨62, _⟩ => ⟨S_, .f32⟩
  | .hbm, ⟨63, _⟩ => ⟨S16384x8, .f32⟩
  | .hbm, ⟨64, _⟩ => ⟨S131072x1, .i32⟩
  | .hbm, ⟨65, _⟩ => ⟨S16384x8, .f32⟩
  | .hbm, ⟨66, _⟩ => ⟨S131072x8x1, .f32⟩
  | .hbm, ⟨67, _⟩ => ⟨S131072x8x64, .f32⟩
  | .hbm, ⟨68, _⟩ => ⟨S131072x8x64, .f32⟩
  | .hbm, ⟨69, _⟩ => ⟨S_, .f32⟩
  | .hbm, ⟨70, _⟩ => ⟨S16384x8x64, .f32⟩
  | .hbm, ⟨71, _⟩ => ⟨S131072x1, .i32⟩
  | .hbm, ⟨72, _⟩ => ⟨S16384x8x64, .f32⟩
  | .hbm, ⟨73, _⟩ => ⟨S16384x8x1, .f32⟩
  | .hbm, ⟨74, _⟩ => ⟨S16384x8x64, .f32⟩
  | .hbm, ⟨75, _⟩ => ⟨S16384x8x64, .f32⟩
  | .hbm, ⟨76, _⟩ => ⟨S16384x512, .f32⟩
  | .hbm, ⟨77, _⟩ => ⟨S16384x64, .f32⟩
  | .hbm, ⟨78, _⟩ => ⟨S1x64, .f32⟩
  | .hbm, ⟨79, _⟩ => ⟨S16384x64, .f32⟩
  | .hbm, ⟨80, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩

abbrev nD : Nat := 1
abbrev τ : Topo := Topo.v7x

variable {F : FTy → Type} [FloatOps F]

class Facts₀ : Prop where
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  shapeCasts_S131072x256_S131072x8x32 : S131072x256.ShapeCasts S131072x8x32
  bcast_S_S131072 : S_.BroadcastsInDim S131072 (![] : Fin 0 → Fin S131072.rank)
  bcast_S131072_S131072x1_0 : S131072.BroadcastsInDim S131072x1 (![0] : Fin 1 → Fin S131072x1.rank)
  shapeCasts_S131072x512_S131072x8x64 : S131072x512.ShapeCasts S131072x8x64
  reducesTo_S131072x8x64_S131072x8_d2 : S131072x8x64.ReducesTo [2] S131072x8
  h_S_ : 0 < S_.numel
  reducesTo_S131072x8x32_S131072x8_d2 : S131072x8x32.ReducesTo [2] S131072x8
  bcast_S_S131072x8 : S_.BroadcastsInDim S131072x8 (![] : Fin 0 → Fin S131072x8.rank)
  bcast_S_S16384x8 : S_.BroadcastsInDim S16384x8 (![] : Fin 0 → Fin S16384x8.rank)
  bcast_S131072x8_S131072x8x1_0_1 : S131072x8.BroadcastsInDim S131072x8x1 (![0, 1] : Fin 2 → Fin S131072x8x1.rank)
  bcast_S131072x8x1_S131072x8x64_0_1_2 : S131072x8x1.BroadcastsInDim S131072x8x64 (![0, 1, 2] : Fin 3 → Fin S131072x8x64.rank)
  bcast_S_S16384x8x64 : S_.BroadcastsInDim S16384x8x64 (![] : Fin 0 → Fin S16384x8x64.rank)
  bcast_S16384x8_S16384x8x1_0_1 : S16384x8.BroadcastsInDim S16384x8x1 (![0, 1] : Fin 2 → Fin S16384x8x1.rank)
  bcast_S16384x8x1_S16384x8x64_0_1_2 : S16384x8x1.BroadcastsInDim S16384x8x64 (![0, 1, 2] : Fin 3 → Fin S16384x8x64.rank)
  shapeCasts_S16384x8x64_S16384x512 : S16384x8x64.ShapeCasts S16384x512
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x64_S64x512_S16384x512_1_0_0_1_n_n_wf : DotDims.WF S16384x64 S64x512 S16384x512 [1] [0] [0] [1] [] []
  dot_S131072x32_S32x256_S131072x256_1_0_0_1_n_n_wf : DotDims.WF S131072x32 S32x256 S131072x256 [1] [0] [0] [1] [] []
  gather_S16384x512_S131072x1_S131072x512_1_0_n_n_0_1_1512_wf : GatherDims.WF S16384x512 S131072x1 S131072x512 [1] [0] [] [0] [] 1 ![1, 512]
  scatter_S16384x8_S131072x1_S131072x8_1_0_0_1_wf : ScatterDims.WF S16384x8 S131072x1 S131072x8 [1] [0] [0] 1
  scatter_S16384x8x64_S131072x1_S131072x8x64_12_0_0_1_wf : ScatterDims.WF S16384x8x64 S131072x1 S131072x8x64 [1, 2] [0] [0] 1
  dot_S16384x512_S512x64_S16384x64_1_0_0_1_n_n_wf : DotDims.WF S16384x512 S512x64 S16384x64 [1] [0] [0] [1] [] []

variable [Facts₀]

def dot_S16384x64_S64x512_S16384x512_1_0_0_1_n_n : DotDims S16384x64 S64x512 S16384x512 where
  lhsContracting := [1]
  rhsContracting := [0]
  lhsNonContracting := [0]
  rhsNonContracting := [1]
  lhsBatch := []
  rhsBatch := []
  wf := dot_S16384x64_S64x512_S16384x512_1_0_0_1_n_n_wf
def dot_S131072x32_S32x256_S131072x256_1_0_0_1_n_n : DotDims S131072x32 S32x256 S131072x256 where
  lhsContracting := [1]
  rhsContracting := [0]
  lhsNonContracting := [0]
  rhsNonContracting := [1]
  lhsBatch := []
  rhsBatch := []
  wf := dot_S131072x32_S32x256_S131072x256_1_0_0_1_n_n_wf
def gather_S16384x512_S131072x1_S131072x512_1_0_n_n_0_1_1512 : GatherDims S16384x512 S131072x1 S131072x512 where
  offsetDims := [1]
  collapsedSliceDims := [0]
  operandBatchingDims := []
  startIndicesBatchingDims := []
  startIndexMap := [0]
  indexVectorDim := 1
  sliceSizes := ![1, 512]
  wf := gather_S16384x512_S131072x1_S131072x512_1_0_n_n_0_1_1512_wf
def scatter_S16384x8_S131072x1_S131072x8_1_0_0_1 : ScatterDims S16384x8 S131072x1 S131072x8 where
  updateWindowDims := [1]
  insertedWindowDims := [0]
  scatterDimsToOperandDims := [0]
  indexVectorDim := 1
  wf := scatter_S16384x8_S131072x1_S131072x8_1_0_0_1_wf
def scatter_S16384x8x64_S131072x1_S131072x8x64_12_0_0_1 : ScatterDims S16384x8x64 S131072x1 S131072x8x64 where
  updateWindowDims := [1, 2]
  insertedWindowDims := [0]
  scatterDimsToOperandDims := [0]
  indexVectorDim := 1
  wf := scatter_S16384x8x64_S131072x1_S131072x8x64_12_0_0_1_wf
def dot_S16384x512_S512x64_S16384x64_1_0_0_1_n_n : DotDims S16384x512 S512x64 S16384x64 where
  lhsContracting := [1]
  rhsContracting := [0]
  lhsNonContracting := [0]
  rhsNonContracting := [1]
  lhsBatch := []
  rhsBatch := []
  wf := dot_S16384x512_S512x64_S16384x64_1_0_0_1_n_n_wf

class Facts : Prop extends Facts₀ where

variable [Facts]
-- ==== Proof.Spec.lean ====
/-
  What the three kernel regions compute, index by index, over the extended reals.
  A linear layer is the matrix product plus a bias row: out[i, j] = Σ_k x[i, k] · w[k, j] + b[0, j].
  The edge layer projects each edge's 32 features to 8 heads of 32 channels, adds the bias, and sums
  each head's 32 channels: out[e, h] = Σ_d ( Σ_k x[e, k] · w[k, 32 h + d] + b[0, 32 h + d] ).
-/
import Idealize.ShloMosaic.PureOps.Ideal
import Idealize.ShloMosaic.Lib.ValueIdx

noncomputable section

namespace Cert.Spec

open Idealize.ShloMosaic Idealize.ShloMosaic.ValueIdx

/-- The node projection: 16384 nodes, 64 features in, 512 out. -/
def lin0 (x : FVec Ideal ⟨2, ![16384, 64]⟩ .f32) (w : FVec Ideal ⟨2, ![64, 512]⟩ .f32) (b : FVec Ideal ⟨2, ![1, 512]⟩ .f32) :
    FVec Ideal ⟨2, ![16384, 512]⟩ .f32 :=
  fun j => (∑ k : Fin 64, x (ix2 (j 0) k) * w (ix2 k (j 1))) + b (ix2 (0 : Fin 1) (j 1))

/-- The output projection: 16384 nodes, 512 features in, 64 out. -/
def lin2 (x : FVec Ideal ⟨2, ![16384, 512]⟩ .f32) (w : FVec Ideal ⟨2, ![512, 64]⟩ .f32) (b : FVec Ideal ⟨2, ![1, 64]⟩ .f32) :
    FVec Ideal ⟨2, ![16384, 64]⟩ .f32 :=
  fun j => (∑ k : Fin 512, x (ix2 (j 0) k) * w (ix2 k (j 1))) + b (ix2 (0 : Fin 1) (j 1))

/-- Channel `d` of head `h` is column `32 h + d` of the 256 projected edge channels. -/
def chan (h : Fin 8) (d : Fin 32) : Fin 256 := ⟨32 * h.val + d.val, by omega⟩

/-- One edge's head sum. -/
def edgeAt (x : FVec Ideal ⟨2, ![131072, 32]⟩ .f32) (w : FVec Ideal ⟨2, ![32, 256]⟩ .f32) (b : FVec Ideal ⟨2, ![1, 256]⟩ .f32)
    (e : Fin 131072) (h : Fin 8) : EReal :=
  ∑ d : Fin 32, ((∑ k : Fin 32, x (ix2 e k) * w (ix2 k (chan h d))) + b (ix2 (0 : Fin 1) (chan h d)))

/-- The edge projection summed per head: 131072 edges, 8 heads. -/
def edge (x : FVec Ideal ⟨2, ![131072, 32]⟩ .f32) (w : FVec Ideal ⟨2, ![32, 256]⟩ .f32) (b : FVec Ideal ⟨2, ![1, 256]⟩ .f32) :
    FVec Ideal ⟨2, ![131072, 8]⟩ .f32 :=
  fun j => edgeAt x w b (j 0) (j 1)

end Cert.Spec

end
-- ==== Proof.RefTerm.lean ====
/-
  The reference's result as one term of its nine arguments: the node projection h, the per-head edge sums,
  the two row gathers of h at the receiver and sender ids (negative ids counted from the end, as array
  indexing does), the attention weights exp(leaky_relu(mean)), their segment sums over the receivers, the
  weighted average of the senders' rows, and the output projection.
-/
import proofs.«422085_j75196287418915_1_alg».proof.ReferenceIdeal

noncomputable section

namespace Cert.ReferenceIdeal.Term

open Idealize.ShloMosaic Cert.ReferenceIdeal

variable {F : FTy → Type} [FloatOps F] [Facts]
open Facts₀ Facts

/-- The receiver ids: column 0 of the pair table. -/
def col0 (p : IVec S131072x2 32) : IVec S131072 32 :=
  shapeCast S131072 (extractStridedSlice S131072x1 ![0, 0] p slices_S131072x2_S131072x1_0_0) shapeCasts_S131072x1_S131072
/-- The sender ids: column 1 of the pair table. -/
def col1 (p : IVec S131072x2 32) : IVec S131072 32 :=
  shapeCast S131072 (extractStridedSlice S131072x1 ![0, 1] p slices_S131072x2_S131072x1_0_1) shapeCasts_S131072x1_S131072

/-- An id counted from the end when negative, as a one-column index table. -/
def wrap (i : IVec S131072 32) : IVec S131072x1 32 :=
  broadcastInDim S131072x1 ![0] bcast_S131072_S131072x1_0
    (select (cmpi .slt i (broadcastInDim S131072 ![] bcast_S_S131072 (constantI S_ 32 0#32)))
      (addi i (broadcastInDim S131072 ![] bcast_S_S131072 (constantI S_ 32 16384#32))) i)

/-- The rows of `h` at the ids `i`. -/
def rows (h : FVec F S16384x512 .f32) (i : IVec S131072 32) : FVec F S131072x512 .f32 :=
  Host.gather gather_S16384x512_S131072x1_S131072x512_1_0_n_n_0_1_1512 h (wrap i)

/-- From the gathered receiver rows `hr`, sender rows `hs`, per-head edge sums `es` and receiver ids: the
    attention-weighted average of the senders' rows at every node, flattened to 512 columns. -/
def mid (hr hs : FVec F S131072x512 .f32) (es : FVec F S131072x8 .f32) (recv : IVec S131072 32) : FVec F S16384x512 .f32 :=
  let r3 : FVec F S131072x8x64 .f32 := shapeCast S131072x8x64 hr shapeCasts_S131072x512_S131072x8x64
  let s3 : FVec F S131072x8x64 .f32 := shapeCast S131072x8x64 hs shapeCasts_S131072x512_S131072x8x64
  let sr : FVec F S131072x8 .f32 := Host.reduceAdd r3 (constant S_ .f32 0x00000000#32) reducesTo_S131072x8x64_S131072x8_d2 h_S_
  let ss : FVec F S131072x8 .f32 := Host.reduceAdd s3 (constant S_ .f32 0x00000000#32) reducesTo_S131072x8x64_S131072x8_d2 h_S_
  let a : FVec F S131072x8 .f32 := Host.divf (addf (addf sr ss) es) (broadcastInDim S131072x8 ![] bcast_S_S131072x8 (constant S_ .f32 0x43200000#32))
  let lr : FVec F S131072x8 .f32 :=
    select (cmpf .oge a (broadcastInDim S131072x8 ![] bcast_S_S131072x8 (constant S_ .f32 0x00000000#32))) a
      (mulf (broadcastInDim S131072x8 ![] bcast_S_S131072x8 (id (constant S_ .f32 0x3E4CCCCD#32))) a)
  let ex : FVec F S131072x8 .f32 := Host.exp lr
  let ids : IVec S131072x1 32 := broadcastInDim S131072x1 ![0] bcast_S131072_S131072x1_0 recv
  let den : FVec F S16384x8 .f32 :=
    Host.scatterAdd scatter_S16384x8_S131072x1_S131072x8_1_0_0_1 (broadcastInDim S16384x8 ![] bcast_S_S16384x8 (constant S_ .f32 0x00000000#32)) ids ex
  let wgt : FVec F S131072x8x64 .f32 :=
    mulf (broadcastInDim S131072x8x64 ![0, 1, 2] bcast_S131072x8x1_S131072x8x64_0_1_2 (broadcastInDim S131072x8x1 ![0, 1] bcast_S131072x8_S131072x8x1_0_1 ex)) s3
  let num : FVec F S16384x8x64 .f32 :=
    Host.scatterAdd scatter_S16384x8x64_S131072x1_S131072x8x64_12_0_0_1 (broadcastInDim S16384x8x64 ![] bcast_S_S16384x8x64 (constant S_ .f32 0x00000000#32)) ids wgt
  let q : FVec F S16384x8x64 .f32 :=
    Host.divf num (broadcastInDim S16384x8x64 ![0, 1, 2] bcast_S16384x8x1_S16384x8x64_0_1_2 (broadcastInDim S16384x8x1 ![0, 1] bcast_S16384x8_S16384x8x1_0_1 den))
  shapeCast S16384x512 q shapeCasts_S16384x8x64_S16384x512

/-- The node projection. -/
def hid (a0 : FVec F S16384x64 .f32) (a3 : FVec F S64x512 .f32) (a4 : FVec F S512 .f32) : FVec F S16384x512 .f32 :=
  addf (Host.dotGeneral dot_S16384x64_S64x512_S16384x512_1_0_0_1_n_n none a0 a3)
    (broadcastInDim S16384x512 ![0, 1] bcast_S1x512_S16384x512_0_1 (broadcastInDim S1x512 ![1] bcast_S512_S1x512_1 a4))

/-- The edge projection, each head's 32 channels summed. -/
def esum (a1 : FVec F S131072x32 .f32) (a5 : FVec F S32x256 .f32) (a6 : FVec F S256 .f32) : FVec F S131072x8 .f32 :=
  Host.reduceAdd
    (shapeCast S131072x8x32
      (addf (Host.dotGeneral dot_S131072x32_S32x256_S131072x256_1_0_0_1_n_n none a1 a5)
        (broadcastInDim S131072x256 ![0, 1] bcast_S1x256_S131072x256_0_1 (broadcastInDim S1x256 ![1] bcast_S256_S1x256_1 a6)))
      shapeCasts_S131072x256_S131072x8x32)
    (constant S_ .f32 0x00000000#32) reducesTo_S131072x8x32_S131072x8_d2 h_S_

/-- The output projection of an aggregate. -/
def proj (g : FVec F S16384x512 .f32) (a7 : FVec F S512x64 .f32) (a8 : FVec F S64 .f32) : FVec F S16384x64 .f32 :=
  addf (Host.dotGeneral dot_S16384x512_S512x64_S16384x64_1_0_0_1_n_n none g a7)
    (broadcastInDim S16384x64 ![0, 1] bcast_S1x64_S16384x64_0_1 (broadcastInDim S1x64 ![1] bcast_S64_S1x64_1 a8))

/-- The reference's result. -/
def out (a0 : FVec F S16384x64 .f32) (a1 : FVec F S131072x32 .f32) (a2 : IVec S131072x2 32) (a3 : FVec F S64x512 .f32)
    (a4 : FVec F S512 .f32) (a5 : FVec F S32x256 .f32) (a6 : FVec F S256 .f32) (a7 : FVec F S512x64 .f32) (a8 : FVec F S64 .f32) :
    FVec F S16384x64 .f32 :=
  proj (mid (rows (hid a0 a3 a4) (col0 a2)) (rows (hid a0 a3 a4) (col1 a2)) (esum a1 a5 a6) (col0 a2)) a7 a8

end Cert.ReferenceIdeal.Term

end
-- ==== Proof.KernelTerm.lean ====
/-
  The kernel's row lookup as one term: the ids are counted from the end when negative, the rows are gathered,
  and a row whose id falls outside 0 … 16383 is replaced by a fill pattern.
-/
import proofs.«422085_j75196287418915_1_alg».proof.KernelIdeal

noncomputable section

namespace Cert.KernelIdeal.Term

open Idealize.ShloMosaic Cert.KernelIdeal

variable {F : FTy → Type} [FloatOps F] [Facts]
open Facts₀ Facts

/-- The receiver ids: column 0 of the pair table. -/
def col0 (p : IVec S131072x2 32) : IVec S131072 32 :=
  shapeCast S131072 (extractStridedSlice S131072x1 ![0, 0] p slices_S131072x2_S131072x1_0_0) shapeCasts_S131072x1_S131072
/-- The sender ids: column 1 of the pair table. -/
def col1 (p : IVec S131072x2 32) : IVec S131072 32 :=
  shapeCast S131072 (extractStridedSlice S131072x1 ![0, 1] p slices_S131072x2_S131072x1_0_1) shapeCasts_S131072x1_S131072

/-- An id counted from the end when negative, as a one-column index table. -/
def wrap (i : IVec S131072 32) : IVec S131072x1 32 :=
  broadcastInDim S131072x1 ![0] bcast_S131072_S131072x1_0
    (select (cmpi .slt i (broadcastInDim S131072 ![] bcast_S_S131072 (constantI S_ 32 0#32)))
      (addi i (broadcastInDim S131072 ![] bcast_S_S131072 (constantI S_ 32 16384#32))) i)

/-- Per id: is it, once counted from the end, inside 0 … 16383? -/
def inRange (i : IVec S131072 32) : IVec S131072 1 :=
  Host.reduce IntOp.andi
    (andi (cmpi .sge (wrap i) (broadcastInDim S131072x1 ![] bcast_S_S131072x1 (constantI S_ 32 0#32)))
      (cmpi .sle (wrap i) (broadcastInDim S131072x1 ![0, 1] bcast_S1x1_S131072x1_0_1 (broadcastInDim S1x1 ![1] bcast_S1_S1x1_1 (constantI S1 32 16383#32)))))
    (constantI S_ 1 1#1) reducesTo_S131072x1_S131072_d1 h_S_

/-- The rows of `h` at the ids `i`, a row outside the table replaced by the fill pattern. -/
def take (h : FVec F S16384x512 .f32) (i : IVec S131072 32) : FVec F S131072x512 .f32 :=
  select (broadcastInDim S131072x512 ![0] bcast_S131072_S131072x512_0 (inRange i))
    (Host.gather gather_S16384x512_S131072x1_S131072x512_1_0_n_n_0_1_1512 h (wrap i))
    (broadcastInDim S131072x512 ![] bcast_S_S131072x512 (constant S_ .f32 0x7FC00000#32))

end Cert.KernelIdeal.Term

end
-- ==== Proof.KernelOut.lean ====
/-
  The kernel's result as one term of its nine arguments, over the extended reals: the three regions by their
  index-by-index meaning (Spec), the row lookups with their out-of-table fill, and between them the same
  attention arithmetic as the reference's.
-/
import proofs.«422085_j75196287418915_1_alg».proof.Proof.Spec
import proofs.«422085_j75196287418915_1_alg».proof.Proof.RefTerm
import proofs.«422085_j75196287418915_1_alg».proof.Proof.KernelTerm

noncomputable section

namespace Cert.KernelIdeal.Term

open Idealize.ShloMosaic Cert.KernelIdeal

variable [Cert.KernelIdeal.Facts] [Cert.ReferenceIdeal.Facts]
open Facts₀ Facts

/-- The node projection as the kernel computes it: region 0 over the bias as a 1 × 512 row. -/
def hidK (a0 : FVec Ideal S16384x64 .f32) (a3 : FVec Ideal S64x512 .f32) (a4 : FVec Ideal S512 .f32) : FVec Ideal S16384x512 .f32 :=
  Cert.Spec.lin0 a0 a3 (shapeCast S1x512 a4 shapeCasts_S512_S1x512)

/-- The per-head edge sums as the kernel computes them: region 1 over the bias as a 1 × 256 row. -/
def esumK (a1 : FVec Ideal S131072x32 .f32) (a5 : FVec Ideal S32x256 .f32) (a6 : FVec Ideal S256 .f32) : FVec Ideal S131072x8 .f32 :=
  Cert.Spec.edge a1 a5 (shapeCast S1x256 a6 shapeCasts_S256_S1x256)

/-- The kernel's result. -/
def outK (a0 : FVec Ideal S16384x64 .f32) (a1 : FVec Ideal S131072x32 .f32) (a2 : IVec S131072x2 32) (a3 : FVec Ideal S64x512 .f32)
    (a4 : FVec Ideal S512 .f32) (a5 : FVec Ideal S32x256 .f32) (a6 : FVec Ideal S256 .f32) (a7 : FVec Ideal S512x64 .f32) (a8 : FVec Ideal S64 .f32) :
    FVec Ideal S16384x64 .f32 :=
  Cert.Spec.lin2
    (Cert.ReferenceIdeal.Term.mid (take (hidK a0 a3 a4) (col0 a2)) (take (hidK a0 a3 a4) (col1 a2)) (esumK a1 a5 a6) (col0 a2))
    a7 (shapeCast S1x64 a8 shapeCasts_S64_S1x64)

end Cert.KernelIdeal.Term

end
-- ==== Proof.Region0.lean ====
/-
  Region 0, the node projection: after its eight grid points the output array holds, index by index,
  out[i, j] = Σ_k x[i, k] · w[k, j] + b[0, j]   (16384 rows, 64 features in, 512 out).
  Three steps: one stored block entry by entry (the matrix product at an index, the bias row spread over the rows);
  what grid point t writes back is block t of that one whole-array function (rows 2048 t … 2048 t + 2047 of the
  features against the whole weight and bias); the eight blocks cover the array's 16384 rows.
-/
import proofs.«422085_j75196287418915_1_alg».proof.Proof.Gen.KernelIdeal.Frame
import proofs.«422085_j75196287418915_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.RegionValue

open Idealize.ShloMosaic Idealize.ShloMosaic.TcCoe Idealize.SL.Sem Cert.KernelIdeal Cert.KernelIdeal.Gen
open Idealize.ShloMosaic.Pipeline (Dat Cfg Window)
open Idealize.ShloMosaic.ValueIdx

namespace NodeProjection

/-- The zero offsets of a whole-buffer access. -/
theorem zeroOffsets : (![0, 0] : Fin 2 → Nat) = fun _ => 0 := funext fun a => by fin_cases a <;> rfl

/-! ## The matrix product's operand indices

The product contracts the 64 input features: columns of the left operand against rows of the right. -/

/-- The left operand's row is the output's row. -/
theorem lhs_row (j : S2048x512.Idx) (k : dot_S2048x64_S64x512_S2048x512_1_0_0_1_n_n.contr.Idx) :
    (dot_S2048x64_S64x512_S2048x512_1_0_0_1_n_n.lhsIdx j k 0).val = (j 0).val := by
  unfold DotDims.lhsIdx
  rw [dif_neg (show ¬(0 : Fin S2048x64.rank) ∈ dot_S2048x64_S64x512_S2048x512_1_0_0_1_n_n.lhsBatch by decide),
    dif_pos (show (0 : Fin S2048x64.rank) ∈ dot_S2048x64_S64x512_S2048x512_1_0_0_1_n_n.lhsNonContracting by decide)]
  rfl

/-- The left operand's column is the contracted feature. -/
theorem lhs_col (j : S2048x512.Idx) (k : dot_S2048x64_S64x512_S2048x512_1_0_0_1_n_n.contr.Idx) :
    (dot_S2048x64_S64x512_S2048x512_1_0_0_1_n_n.lhsIdx j k 1).val = (k ⟨0, by decide⟩).val :=
  dot_S2048x64_S64x512_S2048x512_1_0_0_1_n_n.lhsIdx_val_of_single (cl := 1) rfl j k

/-- The right operand's row is the contracted feature. -/
theorem rhs_row (j : S2048x512.Idx) (k : dot_S2048x64_S64x512_S2048x512_1_0_0_1_n_n.contr.Idx) :
    (dot_S2048x64_S64x512_S2048x512_1_0_0_1_n_n.rhsIdx j k 0).val = (k ⟨0, by decide⟩).val :=
  dot_S2048x64_S64x512_S2048x512_1_0_0_1_n_n.rhsIdx_val_of_single (cr := 0) rfl j k

/-- The right operand's column is the output's column. -/
theorem rhs_col (j : S2048x512.Idx) (k : dot_S2048x64_S64x512_S2048x512_1_0_0_1_n_n.contr.Idx) :
    (dot_S2048x64_S64x512_S2048x512_1_0_0_1_n_n.rhsIdx j k 1).val = (j 1).val := by
  unfold DotDims.rhsIdx
  rw [dif_neg (show ¬(1 : Fin S64x512.rank) ∈ dot_S2048x64_S64x512_S2048x512_1_0_0_1_n_n.rhsBatch by decide),
    dif_pos (show (1 : Fin S64x512.rank) ∈ dot_S2048x64_S64x512_S2048x512_1_0_0_1_n_n.rhsNonContracting by decide)]
  rfl

/-! ## One block of the linear layer, entry by entry -/

/-- Entry (p, q) of the product of a 2048×64 block by the 64×512 weight: the sum over the 64 features. The narrowing
    of the operands is the identity on extended reals, and the accumulator starts at zero. -/
theorem product_apply (x0 : FVec Ideal S2048x64 .f32) (x1 : FVec Ideal S64x512 .f32) (p : Fin 2048) (q : Fin 512) :
    matmul (F := Ideal) dot_S2048x64_S64x512_S2048x512_1_0_0_1_n_n none (truncf .bf16 x0 bitsLt_bf16_f32) (truncf .bf16 x1 bitsLt_bf16_f32)
        (constant S2048x512 .f32 0x00000000#32) (ix2 p q)
      = ∑ k : Fin 64, x0 (ix2 p k) * x1 (ix2 k q) := by
  simp only [matmul]
  rw [Ideal.matmul_constant_zero_apply, ← Equiv.sum_comp (contrEquiv1 dot_S2048x64_S64x512_S2048x512_1_0_0_1_n_n 64 rfl rfl).symm]
  refine Finset.sum_congr rfl fun k _ => ?_
  rw [truncf_apply, truncf_apply]
  have c := contrEquiv1_symm_val dot_S2048x64_S64x512_S2048x512_1_0_0_1_n_n 64 rfl rfl k
  have hl : dot_S2048x64_S64x512_S2048x512_1_0_0_1_n_n.lhsIdx (ix2 p q) ((contrEquiv1 dot_S2048x64_S64x512_S2048x512_1_0_0_1_n_n 64 rfl rfl).symm k) = ix2 p k := by
    funext a; apply Fin.ext
    match a with
    | ⟨0, _⟩ => exact lhs_row _ _
    | ⟨1, _⟩ => exact (lhs_col _ _).trans c
  have hr : dot_S2048x64_S64x512_S2048x512_1_0_0_1_n_n.rhsIdx (ix2 p q) ((contrEquiv1 dot_S2048x64_S64x512_S2048x512_1_0_0_1_n_n 64 rfl rfl).symm k) = ix2 k q := by
    funext a; apply Fin.ext
    match a with
    | ⟨0, _⟩ => exact (rhs_row _ _).trans c
    | ⟨1, _⟩ => exact rhs_col _ _
  rw [hl, hr]

/-- Entry (p, q) of the bias row spread over the block's 2048 rows is the bias at q. -/
theorem bias_apply (x2 : FVec Ideal S1x512 .f32) (p : Fin 2048) (q : Fin 512) :
    broadcastTo S2048x512 (shapeCast S1x512 x2 shapeCasts_S1x512_S1x512) broadcasts_S1x512_S2048x512 (ix2 p q)
      = x2 (ix2 (0 : Fin 1) q) := by
  rw [shapeCast_self]
  exact broadcastTo_apply x2 broadcasts_S1x512_S2048x512 (ix2 p q) (ix2 (0 : Fin 1) q) (fun a => by
    match a with
    | ⟨0, _⟩ => rfl
    | ⟨1, _⟩ => rfl)

/-- Entry (p, q) of what the body stores: row p of the block against column q of the weight over the 64 features,
    plus the bias at q. -/
theorem linear_block_apply (x0 : Vec Ideal S2048x64 .f32) (x1 : Vec Ideal S64x512 .f32) (x2 : Vec Ideal S1x512 .f32)
    (p : Fin 2048) (q : Fin 512) :
    k0_pay1 x0 x1 x2 (ix2 p q) = (∑ k : Fin 64, x0 (ix2 p k) * x1 (ix2 k q)) + x2 (ix2 (0 : Fin 1) q) := by
  unfold k0_pay1
  rw [addf_apply, product_apply, bias_apply]

/-! ## From the blocks to the array -/

/-- Where each window's block sits at grid point t, decided over the 8 points: the node-feature window and the output
    window are at row block t, column block 0; the weight and the bias are whole at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's block is the linear layer at an array index i, as soon as the three loaded blocks read the arrays
    where i says: row p of the feature block is row i₀ of the features, column q of the weight and bias blocks is
    column i₁ of the weight and the bias. -/
theorem linear_block_eq_lin0 (X : FVec Ideal ⟨2, ![16384, 64]⟩ .f32) (W : FVec Ideal ⟨2, ![64, 512]⟩ .f32)
    (B : FVec Ideal ⟨2, ![1, 512]⟩ .f32)
    (x0 : Vec Ideal S2048x64 .f32) (x1 : Vec Ideal S64x512 .f32) (x2 : Vec Ideal S1x512 .f32)
    (p : Fin 2048) (q : Fin 512) (i : (⟨2, ![16384, 512]⟩ : Shape).Idx)
    (h0 : ∀ k : Fin 64, x0 (ix2 p k) = X (ix2 (i 0) k))
    (h1 : ∀ k : Fin 64, x1 (ix2 k q) = W (ix2 k (i 1)))
    (h2 : x2 (ix2 (0 : Fin 1) q) = B (ix2 (0 : Fin 1) (i 1))) :
    k0_pay1 x0 x1 x2 (ix2 p q) = Cert.Spec.lin0 X W B i := by
  rw [linear_block_apply, h2]
  show _ = (∑ k : Fin 64, X (ix2 (i 0) k) * W (ix2 k (i 1))) + B (ix2 (0 : Fin 1) (i 1))
  exact congrArg (· + B (ix2 (0 : Fin 1) (i 1))) (Finset.sum_congr rfl fun k _ => by rw [h0 k, h1 k])

/-- What grid point t writes back is its block of the linear layer of the arrays as the region finds them. -/
theorem flushed_eq_lin0 (V : (c : Dev nD) → (b : Ref sig .tc) → Buf (Elt Ideal) ((c : Thread nD τ).loc b))
    (c : Dev nD) (t : Fin cfg0.N) :
    (dat0 (F := Ideal) V c).flushed 3 t
      = ((cfg0.win 3).blk t).view.read (Elt Ideal) (Cert.Spec.lin0 (V c main_arg0) (V c main_arg3) (V c main_v4)) := by
  show (cfg0.win 3).cut (grid0.coords t) ((dat0 V c).after 3 t) = _
  rw [after0_3]
  unfold out0_3
  rw [View.canon_unit_zero zeroOffsets]
  simp only [View.ld_unit_zero (S := S2048x64) zeroOffsets, View.ld_unit_zero (S := S64x512) zeroOffsets,
    View.ld_unit_zero (S := S1x512) zeroOffsets]
  obtain ⟨e00, e01, e10, e11, e20, e21, e30, e31⟩ := block_indices t
  funext j
  obtain ⟨p, q, rfl⟩ : ∃ (p : Fin 2048) (q : Fin 512), j = ix2 p q := ⟨j 0, j 1, eq_ix2 j⟩
  show k0_pay1 (iblk0 V c 0 t) (iblk0 V c 1 t) (iblk0 V c 2 t) (ix2 p q)
    = Cert.Spec.lin0 (V c main_arg0) (V c main_arg3) (V c main_v4) (((cfg0.win 3).blk t).view.emb (ix2 p q))
  refine linear_block_eq_lin0 (V c main_arg0) (V c main_arg3) (V c main_v4)
    (iblk0 V c 0 t) (iblk0 V c 1 t) (iblk0 V c 2 t) p q (((cfg0.win 3).blk t).view.emb (ix2 p q))
    (fun k => ?_) (fun k => ?_) ?_
  · -- the feature block's row p is the array's row 2048 t + p, which is the output block's row p
    show V c main_arg0 (((cfg0.win 0).blk t).view.emb (ix2 p k))
      = V c main_arg0 (ix2 ((((cfg0.win 3).blk t).view.emb (ix2 p q)) 0) k)
    refine congrArg (V c main_arg0) (funext fun a => Fin.ext ?_)
    match a with
    | ⟨0, _⟩ =>
      show win0_0.index t (0 : Fin 2) * 2048 + 1 * p.val = win0_3.index t (0 : Fin 2) * 2048 + 1 * p.val
      omega
    | ⟨1, _⟩ =>
      show win0_0.index t (1 : Fin 2) * 64 + 1 * k.val = k.val
      omega
  · -- the weight block is the whole weight; the output block's column q is the array's column q
    show V c main_arg3 (((cfg0.win 1).blk t).view.emb (ix2 k q))
      = V c main_arg3 (ix2 k ((((cfg0.win 3).blk t).view.emb (ix2 p q)) 1))
    refine congrArg (V c main_arg3) (funext fun a => Fin.ext ?_)
    match a with
    | ⟨0, _⟩ =>
      show win0_1.index t (0 : Fin 2) * 64 + 1 * k.val = k.val
      omega
    | ⟨1, _⟩ =>
      show win0_1.index t (1 : Fin 2) * 512 + 1 * q.val = win0_3.index t (1 : Fin 2) * 512 + 1 * q.val
      omega
  · -- the bias block is the whole bias row
    show V c main_v4 (((cfg0.win 2).blk t).view.emb (ix2 (0 : Fin 1) q))
      = V c main_v4 (ix2 (0 : Fin 1) ((((cfg0.win 3).blk t).view.emb (ix2 p q)) 1))
    refine congrArg (V c main_v4) (funext fun a => Fin.ext ?_)
    match a with
    | ⟨0, _⟩ =>
      show win0_2.index t (0 : Fin 2) * 1 + 1 * 0 = 0
      omega
    | ⟨1, _⟩ =>
      show win0_2.index t (1 : Fin 2) * 512 + 1 * q.val = win0_3.index t (1 : Fin 2) * 512 + 1 * q.val
      omega

/-- An index of the output array is in grid point t's block iff each coordinate is in the block's range. -/
theorem mem_out_block_iff (t : Fin cfg0.N) (i : S16384x512.Idx) :
    i ∈ ((cfg0.win 3).blk t).view.set
      ↔ ∀ a : Fin 2, win0_3.index t a * S2048x512.size a ≤ (i a).val
          ∧ (i a).val < win0_3.index t a * S2048x512.size a + S2048x512.size a := by
  show i ∈ ((View.whole main_v5).slice (win0_3.rect t)).set ↔ _
  rw [View.set_slice_whole, Rect.mem_set_unit]
  exact Iff.rfl

/-- Every row r of the output is written back: by grid point r / 2048. -/
theorem out_covered (i : S16384x512.Idx) :
    ∃ t : Fin cfg0.N, (cfg0.win 3).flush t = true ∧ i ∈ ((cfg0.win 3).blk t).view.set := by
  have hi0 : (i 0).val < 16384 := (i 0).isLt
  have hi1 : (i 1).val < 512 := (i 1).isLt
  have hN : cfg0.N = 8 := N_0
  have ht : (i 0).val / 2048 < cfg0.N := by rw [hN]; omega
  obtain ⟨-, -, -, -, -, -, e30, e31⟩ := block_indices ⟨(i 0).val / 2048, ht⟩
  refine ⟨⟨(i 0).val / 2048, ht⟩, flush0_3 _, ?_⟩
  rw [mem_out_block_iff]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    rw [e30]
    show (i 0).val / 2048 * 2048 ≤ (i 0).val ∧ (i 0).val < (i 0).val / 2048 * 2048 + 2048
    omega
  | ⟨1, _⟩ =>
    show win0_3.index ⟨(i 0).val / 2048, ht⟩ (1 : Fin 2) * 512 ≤ (i 1).val
      ∧ (i 1).val < win0_3.index ⟨(i 0).val / 2048, ht⟩ (1 : Fin 2) * 512 + 512
    rw [e31]
    omega

end NodeProjection

/-- After the eight grid points the output array holds the linear layer of the arrays the region was entered with. -/
theorem region0 (V : (c : Dev nD) → (b : Ref sig .tc) → Buf (Elt Ideal) ((c : Thread nD τ).loc b)) (c : Dev nD) :
    (dat0 (F := Ideal) V c).arrAt 3 cfg0.N = Cert.Spec.lin0 (V c main_arg0) (V c main_arg3) (V c main_v4) :=
  (dat0 (F := Ideal) V c).arrAt_eq_of_cover 3 (Cert.Spec.lin0 (V c main_arg0) (V c main_arg3) (V c main_v4))
    (fun t _ => NodeProjection.flushed_eq_lin0 V c t) NodeProjection.out_covered

end Cert.KernelIdeal.RegionValue

end
-- ==== Proof.Region1.lean ====
import proofs.«422085_j75196287418915_1_alg».proof.Proof.Gen.KernelIdeal.Frame
import proofs.«422085_j75196287418915_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Idealize.ShloMosaic Idealize.ShloMosaic.TcCoe Idealize.SL.Sem Cert.KernelIdeal Cert.KernelIdeal.Gen
open Idealize.ShloMosaic.Pipeline (Dat Cfg Window)
open Idealize.ShloMosaic.ValueIdx
open Cert.Spec (chan)

/-! ## The edge kernel's arithmetic, read at an index

One grid point holds 4096 edges. The body multiplies their 32 features by the 32 x 256 weight, adds the bias row
to every edge, and then, head by head, sums the 32 channels of the head: column `h` of the [4096, 8] result is the
sum over `d` of channel `32 h + d`. -/

/-- The block product's dimension numbers: the features' axis 1 against the weight's axis 0. -/
abbrev edgeDot : DotDims S4096x32 S32x256 S4096x256 := dot_S4096x32_S32x256_S4096x256_1_0_0_1_n_n

/-- The left operand is read at the output's row … -/
theorem edgeDot_lhs_0 (j : S4096x256.Idx) (k : edgeDot.contr.Idx) :
    (dot_S4096x32_S32x256_S4096x256_1_0_0_1_n_n.lhsIdx j k (0 : Fin 2)).val = (j (0 : Fin 2)).val := by
  simp [DotDims.lhsIdx, dot_S4096x32_S32x256_S4096x256_1_0_0_1_n_n]; rfl
/-- … and at the contraction position on its second axis; -/
theorem edgeDot_lhs_1 (j : S4096x256.Idx) (k : edgeDot.contr.Idx) :
    (dot_S4096x32_S32x256_S4096x256_1_0_0_1_n_n.lhsIdx j k (1 : Fin 2)).val = (k ⟨0, by decide⟩).val :=
  dot_S4096x32_S32x256_S4096x256_1_0_0_1_n_n.lhsIdx_val_of_single rfl j k
/-- the right operand at the contraction position on its first axis … -/
theorem edgeDot_rhs_0 (j : S4096x256.Idx) (k : edgeDot.contr.Idx) :
    (dot_S4096x32_S32x256_S4096x256_1_0_0_1_n_n.rhsIdx j k (0 : Fin 2)).val = (k ⟨0, by decide⟩).val :=
  dot_S4096x32_S32x256_S4096x256_1_0_0_1_n_n.rhsIdx_val_of_single rfl j k
/-- … and at the output's column. -/
theorem edgeDot_rhs_1 (j : S4096x256.Idx) (k : edgeDot.contr.Idx) :
    (dot_S4096x32_S32x256_S4096x256_1_0_0_1_n_n.rhsIdx j k (1 : Fin 2)).val = (j (1 : Fin 2)).val := by
  simp [DotDims.rhsIdx, dot_S4096x32_S32x256_S4096x256_1_0_0_1_n_n]; rfl

/-- The block product into a zero accumulator, at edge `p` and channel `q`: the sum over the 32 features. -/
theorem edgeDot_apply (a : FVec Ideal S4096x32 .bf16) (b : FVec Ideal S32x256 .bf16) (p : Fin 4096) (q : Fin 256) :
    matmul dot_S4096x32_S32x256_S4096x256_1_0_0_1_n_n none a b (constant (F := Ideal) S4096x256 .f32 0x00000000#32) (ix2 p q)
      = ∑ k : Fin 32, a (ix2 p k) * b (ix2 k q) := by
  show FloatOps.matmul dot_S4096x32_S32x256_S4096x256_1_0_0_1_n_n none a b (constant (F := Ideal) S4096x256 .f32 0x00000000#32) (ix2 p q) = _
  rw [Ideal.matmul_constant_zero_apply, ← Equiv.sum_comp (contrEquiv1 dot_S4096x32_S32x256_S4096x256_1_0_0_1_n_n 32 rfl rfl).symm]
  refine Finset.sum_congr rfl fun k _ => ?_
  have hk := contrEquiv1_symm_val dot_S4096x32_S32x256_S4096x256_1_0_0_1_n_n 32 rfl rfl k
  have hl : dot_S4096x32_S32x256_S4096x256_1_0_0_1_n_n.lhsIdx (ix2 p q) ((contrEquiv1 _ 32 rfl rfl).symm k) = ix2 p k := by
    funext ax; apply Fin.ext
    match ax with
    | ⟨0, _⟩ => exact edgeDot_lhs_0 _ _
    | ⟨1, _⟩ => exact (edgeDot_lhs_1 _ _).trans hk
  have hr : dot_S4096x32_S32x256_S4096x256_1_0_0_1_n_n.rhsIdx (ix2 p q) ((contrEquiv1 _ 32 rfl rfl).symm k) = ix2 k q := by
    funext ax; apply Fin.ext
    match ax with
    | ⟨0, _⟩ => exact (edgeDot_rhs_0 _ _).trans hk
    | ⟨1, _⟩ => exact edgeDot_rhs_1 _ _
  rw [hl, hr]

/-- The 256 projected channels of the block's edges, before the head sums: features times weight, plus the bias row. -/
def edgeChannels (x0 : Vec Ideal S4096x32 .f32) (x1 : Vec Ideal S32x256 .f32) (x2 : Vec Ideal S1x256 .f32) : FVec Ideal S4096x256 .f32 :=
  addf (matmul dot_S4096x32_S32x256_S4096x256_1_0_0_1_n_n none (truncf .bf16 x0 bitsLt_bf16_f32) (truncf .bf16 x1 bitsLt_bf16_f32)
      (constant (F := Ideal) S4096x256 .f32 0x00000000#32))
    (broadcastTo S4096x256 (shapeCast S1x256 x2 shapeCasts_S1x256_S1x256) broadcasts_S1x256_S4096x256)

/-- Channel `q` of edge `p`: the features' product with column `q` of the weight, plus the bias at `q`. Over the extended
    reals the narrowing of the operands to bf16 changes nothing. -/
theorem edgeChannels_apply (x0 : Vec Ideal S4096x32 .f32) (x1 : Vec Ideal S32x256 .f32) (x2 : Vec Ideal S1x256 .f32)
    (p : Fin 4096) (q : Fin 256) :
    edgeChannels x0 x1 x2 (ix2 p q) = (∑ k : Fin 32, x0 (ix2 p k) * x1 (ix2 k q)) + x2 (ix2 (0 : Fin 1) q) := by
  unfold edgeChannels
  rw [addf_apply, edgeDot_apply, broadcastTo_1b_ab_apply, shapeCast_self]
  rfl

/-- One head's column: 32 lanes of the channels starting at lane `o`, summed along the lanes, stored as a [4096, 1] column. -/
def headColumn (v : FVec Ideal S4096x256 .f32) (o : Nat) (hs : S4096x256.Slices ![0, o] S4096x32) : FVec Ideal S4096x1 .f32 :=
  shapeCast S4096x1
    (multiReduction (F := Ideal) .add [1] S4096 (extractStridedSlice S4096x32 ![0, o] v hs) 0x00000000#32 reduces_S4096x32_S4096 (.inl rfl) rfl)
    shapeCasts_S4096_S4096x1

/-- Row `p` of a head's column is the sum of that edge's 32 channels `c d`, `c d = o + d`. -/
theorem headColumn_apply (v : FVec Ideal S4096x256 .f32) (o : Nat) (hs : S4096x256.Slices ![0, o] S4096x32)
    (c : Fin 32 → Fin 256) (hc : ∀ d, (c d).val = o + d.val) (p : Fin 4096) (u : Fin 1) :
    headColumn v o hs (ix2 p u) = ∑ d : Fin 32, v (ix2 p (c d)) := by
  unfold headColumn
  refine (shapeCast_apply _ _ (ix2 p u) (ix1 p) ?_).trans ?_
  · rw [Shape.rowMajor_val_one, Shape.rowMajor_val_two]
    show p.val = p.val * 1 + u.val
    have := u.isLt; omega
  refine (Ideal.multiReduction_add_single _ _ reduces_S4096x32_S4096 _ _ (ix1 p)).trans ?_
  refine Finset.sum_congr rfl fun d _ => ?_
  refine extractStridedSlice_apply _ _ _ _ (ix2 p (c d)) fun a => ?_
  match a with
  | ⟨0, _⟩ => show p.val = 0 + p.val; omega
  | ⟨1, _⟩ => show (c d).val = o + d.val; exact hc d

/-- The body's stored value is the eight heads' columns side by side. -/
theorem pay_eq_columns (x0 : Vec Ideal S4096x32 .f32) (x1 : Vec Ideal S32x256 .f32) (x2 : Vec Ideal S1x256 .f32) :
    k1_pay1 (F := Ideal) x0 x1 x2 = concatenate S4096x8 1
      [⟨S4096x1, headColumn (edgeChannels x0 x1 x2) 0 slices_S4096x256_o0_0_S4096x32⟩,
       ⟨S4096x1, headColumn (edgeChannels x0 x1 x2) 32 slices_S4096x256_o0_32_S4096x32⟩,
       ⟨S4096x1, headColumn (edgeChannels x0 x1 x2) 64 slices_S4096x256_o0_64_S4096x32⟩,
       ⟨S4096x1, headColumn (edgeChannels x0 x1 x2) 96 slices_S4096x256_o0_96_S4096x32⟩,
       ⟨S4096x1, headColumn (edgeChannels x0 x1 x2) 128 slices_S4096x256_o0_128_S4096x32⟩,
       ⟨S4096x1, headColumn (edgeChannels x0 x1 x2) 160 slices_S4096x256_o0_160_S4096x32⟩,
       ⟨S4096x1, headColumn (edgeChannels x0 x1 x2) 192 slices_S4096x256_o0_192_S4096x32⟩,
       ⟨S4096x1, headColumn (edgeChannels x0 x1 x2) 224 slices_S4096x256_o0_224_S4096x32⟩]
      concatenates_S4096x1_S4096x1_S4096x1_S4096x1_S4096x1_S4096x1_S4096x1_S4096x1_S4096x8_d1 := rfl

/-- Reading column `n` of the side-by-side columns picks the `n`-th one, at the same row. -/
theorem columns_apply (cols : List ((s : Shape) × (s.Idx → Ideal .f32)))
    (hcat : Shape.Concatenates (cols.map (·.1)) S4096x8 1) (p : Fin 4096) (h : Fin 8)
    (n : Nat) (hn : n < cols.length) (col : S4096x1.Idx → Ideal .f32) (hcol : cols[n] = ⟨S4096x1, col⟩)
    (hpre : (((cols.take n).map (·.1)).map fun s => if e : s.rank = S4096x8.rank then s.size ((1 : Fin 2).cast e.symm) else 0).sum = n)
    (hh : h.val = n) :
    concatenate S4096x8 1 cols hcat (ix2 p h) = col (ix2 p (0 : Fin 1)) := by
  refine concatenate_apply_piece (1 : Fin 2) cols hcat (ix2 p h) n hn S4096x1 col hcol rfl n hpre (ix2 p (0 : Fin 1)) (fun b hb => ?_) ?_
  · match b with
    | ⟨0, _⟩ => rfl
    | ⟨1, _⟩ => exact absurd (Fin.ext rfl) hb
  · show n + 0 = h.val
    omega

/-- THE BODY'S RESULT AT AN INDEX: edge `p`, head `h` — the sum over the head's 32 channels of the projected, biased features. -/
theorem pay_apply (x0 : Vec Ideal S4096x32 .f32) (x1 : Vec Ideal S32x256 .f32) (x2 : Vec Ideal S1x256 .f32)
    (p : Fin 4096) (h : Fin 8) :
    k1_pay1 (F := Ideal) x0 x1 x2 (ix2 p h)
      = ∑ d : Fin 32, ((∑ k : Fin 32, x0 (ix2 p k) * x1 (ix2 k (chan h d))) + x2 (ix2 (0 : Fin 1) (chan h d))) := by
  rw [pay_eq_columns]
  have key : ∀ (o : Nat) (hs : S4096x256.Slices ![0, o] S4096x32), o = 32 * h.val →
      headColumn (edgeChannels x0 x1 x2) o hs (ix2 p (0 : Fin 1))
        = ∑ d : Fin 32, ((∑ k : Fin 32, x0 (ix2 p k) * x1 (ix2 k (chan h d))) + x2 (ix2 (0 : Fin 1) (chan h d))) := by
    intro o hs ho
    rw [headColumn_apply _ o hs (chan h) (fun d => by show 32 * h.val + d.val = o + d.val; omega) p 0]
    exact Finset.sum_congr rfl fun d _ => edgeChannels_apply x0 x1 x2 p (chan h d)
  match h with
  | ⟨0, _⟩ => exact (columns_apply _ _ p _ 0 (Nat.lt_of_sub_eq_succ rfl) _ rfl rfl rfl).trans (key 0 _ rfl)
  | ⟨1, _⟩ => exact (columns_apply _ _ p _ 1 (Nat.lt_of_sub_eq_succ rfl) _ rfl rfl rfl).trans (key 32 _ rfl)
  | ⟨2, _⟩ => exact (columns_apply _ _ p _ 2 (Nat.lt_of_sub_eq_succ rfl) _ rfl rfl rfl).trans (key 64 _ rfl)
  | ⟨3, _⟩ => exact (columns_apply _ _ p _ 3 (Nat.lt_of_sub_eq_succ rfl) _ rfl rfl rfl).trans (key 96 _ rfl)
  | ⟨4, _⟩ => exact (columns_apply _ _ p _ 4 (Nat.lt_of_sub_eq_succ rfl) _ rfl rfl rfl).trans (key 128 _ rfl)
  | ⟨5, _⟩ => exact (columns_apply _ _ p _ 5 (Nat.lt_of_sub_eq_succ rfl) _ rfl rfl rfl).trans (key 160 _ rfl)
  | ⟨6, _⟩ => exact (columns_apply _ _ p _ 6 (Nat.lt_of_sub_eq_succ rfl) _ rfl rfl rfl).trans (key 192 _ rfl)
  | ⟨7, _⟩ => exact (columns_apply _ _ p _ 7 (Nat.lt_of_sub_eq_succ rfl) _ rfl rfl rfl).trans (key 224 _ rfl)

/-! ## From the blocks to the array

Grid point `t` (of 32) handles edges `4096 t … 4096 t + 4095`: its feature block is rows `4096 t …` of the
[131072, 32] features, its result block the same rows of the [131072, 8] result; the weight and the bias row are
read whole at every point. -/

theorem zeroOffsets : (![0, 0] : Fin 2 → Nat) = fun _ => 0 := funext fun a => by fin_cases a <;> rfl

/-- The index maps over the grid: the features' and the result's block index along the edges is the point itself, every
    other block index is zero. -/
theorem blockIndex : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A block of edges against the whole arrays, by coordinates: if row `p` of the block's features is row `e` of the
    features `X`, and the block's weight and bias are the whole `W` and `B`, the body's result at (`p`, `h`) is the
    edge layer of `X`, `W`, `B` at (`e`, `h`). -/
theorem pay_eq_edge_ix (X : FVec Ideal ⟨2, ![131072, 32]⟩ .f32) (W : FVec Ideal ⟨2, ![32, 256]⟩ .f32) (B : FVec Ideal ⟨2, ![1, 256]⟩ .f32)
    (x0 : Vec Ideal S4096x32 .f32) (x1 : Vec Ideal S32x256 .f32) (x2 : Vec Ideal S1x256 .f32)
    (p : Fin 4096) (h : Fin 8) (e : Fin 131072)
    (h0 : ∀ k : Fin 32, x0 (ix2 p k) = X (ix2 e k)) (h1 : x1 = W) (h2 : x2 = B) :
    k1_pay1 (F := Ideal) x0 x1 x2 (ix2 p h) = Cert.Spec.edge X W B (ix2 e h) := by
  subst h1 h2
  rw [pay_apply]
  show _ = ∑ d : Fin 32, ((∑ k : Fin 32, X (ix2 e k) * x1 (ix2 k (chan h d))) + x2 (ix2 (0 : Fin 1) (chan h d)))
  exact Finset.sum_congr rfl fun d _ => congrArg (· + x2 (ix2 (0 : Fin 1) (chan h d)))
    (Finset.sum_congr rfl fun k _ => by rw [h0 k])

/-- The same at any block index `y` and array index `i` with the same head. -/
theorem pay_eq_edge (X : FVec Ideal ⟨2, ![131072, 32]⟩ .f32) (W : FVec Ideal ⟨2, ![32, 256]⟩ .f32) (B : FVec Ideal ⟨2, ![1, 256]⟩ .f32)
    (x0 : Vec Ideal S4096x32 .f32) (x1 : Vec Ideal S32x256 .f32) (x2 : Vec Ideal S1x256 .f32)
    (y : S4096x8.Idx) (i : (⟨2, ![131072, 8]⟩ : Shape).Idx)
    (h0 : ∀ k : Fin 32, x0 (ix2 (y 0) k) = X (ix2 (i 0) k)) (h1 : x1 = W) (h2 : x2 = B) (hi1 : (i 1).val = (y 1).val) :
    k1_pay1 (F := Ideal) x0 x1 x2 y = Cert.Spec.edge X W B i := by
  obtain ⟨p, h, rfl⟩ : ∃ (p : Fin 4096) (h : Fin 8), y = ix2 p h := ⟨y 0, y 1, eq_ix2 y⟩
  obtain ⟨e, h', rfl⟩ : ∃ (e : Fin 131072) (h' : Fin 8), i = ix2 e h' := ⟨i 0, i 1, eq_ix2 i⟩
  obtain rfl : h' = h := Fin.ext hi1
  exact pay_eq_edge_ix X W B x0 x1 x2 p h' e h0 h1 h2

/-- WHAT POINT `t` WRITES BACK is block `t` of the edge layer of the arrays as the region finds them. -/
theorem flushed_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (Cert.Spec.edge (V c main_arg1) (V c main_arg5) (V c main_v6)) := by
  show (cfg1.win 3).cut (grid1.coords t) ((dat1 V c).after 3 t) = _
  rw [after1_3]
  unfold out1_3
  rw [View.canon_unit_zero zeroOffsets]
  simp only [View.ld_unit_zero (S := S4096x32) zeroOffsets, View.ld_unit_zero (S := S32x256) zeroOffsets,
    View.ld_unit_zero (S := S1x256) zeroOffsets]
  obtain ⟨e0, e1, e2, e3, e4, e5, e6, e7⟩ := blockIndex t
  funext j
  show k1_pay1 (F := Ideal) (iblk1 V c 0 t) (iblk1 V c 1 t) (iblk1 V c 2 t) j
    = Cert.Spec.edge (V c main_arg1) (V c main_arg5) (V c main_v6) (((cfg1.win 3).blk t).view.emb j)
  have h0 : ∀ k : Fin 32, (iblk1 V c 0 t : Vec Ideal S4096x32 .f32) (ix2 (j 0) k)
      = (V c main_arg1 : FVec Ideal ⟨2, ![131072, 32]⟩ .f32) (ix2 ((((cfg1.win 3).blk t).view.emb j) 0) k) := by
    intro k
    unfold iblk1
    rw [View.read_apply]
    show V c main_arg1 (((cfg1.win 0).blk t).view.emb (ix2 (j 0) k)) = _
    refine congrArg (V c main_arg1) (funext fun a => Fin.ext ?_)
    match a with
    | ⟨0, _⟩ =>
      show win1_0.index t (0 : Fin 2) * 4096 + 1 * (j 0).val = win1_3.index t (0 : Fin 2) * 4096 + 1 * (j 0).val
      omega
    | ⟨1, _⟩ =>
      show win1_0.index t (1 : Fin 2) * 32 + 1 * k.val = k.val
      omega
  have h1 : (iblk1 V c 1 t : Vec Ideal S32x256 .f32) = V c main_arg5 := by
    funext y
    unfold iblk1
    rw [View.read_apply]
    show V c main_arg5 (((cfg1.win 1).blk t).view.emb y) = V c main_arg5 y
    refine congrArg (V c main_arg5) (funext fun a => Fin.ext ?_)
    match a with
    | ⟨0, _⟩ => show win1_1.index t (0 : Fin 2) * 32 + 1 * (y 0).val = (y 0).val; omega
    | ⟨1, _⟩ => show win1_1.index t (1 : Fin 2) * 256 + 1 * (y 1).val = (y 1).val; omega
  have h2 : (iblk1 V c 2 t : Vec Ideal S1x256 .f32) = V c main_v6 := by
    funext y
    unfold iblk1
    rw [View.read_apply]
    show V c main_v6 (((cfg1.win 2).blk t).view.emb y) = V c main_v6 y
    refine congrArg (V c main_v6) (funext fun a => Fin.ext ?_)
    match a with
    | ⟨0, _⟩ => show win1_2.index t (0 : Fin 2) * 1 + 1 * (y 0).val = (y 0).val; omega
    | ⟨1, _⟩ => show win1_2.index t (1 : Fin 2) * 256 + 1 * (y 1).val = (y 1).val; omega
  have hi1 : ((((cfg1.win 3).blk t).view.emb j) 1).val = (j 1).val := by
    show win1_3.index t (1 : Fin 2) * 8 + 1 * (j 1).val = (j 1).val
    omega
  exact pay_eq_edge (V c main_arg1) (V c main_arg5) (V c main_v6) (iblk1 V c 0 t) (iblk1 V c 1 t) (iblk1 V c 2 t)
    j (((cfg1.win 3).blk t).view.emb j) h0 h1 h2 hi1

/-- An index of the result array is in point `t`'s block iff each coordinate is in the block's range on its axis. -/
theorem mem_block (t : Fin cfg1.N) (i : S131072x8.Idx) :
    i ∈ ((cfg1.win 3).blk t).view.set
      ↔ ∀ a : Fin 2, win1_3.index t a * S4096x8.size a ≤ (i a).val ∧ (i a).val < win1_3.index t a * S4096x8.size a + S4096x8.size a := by
  show i ∈ ((View.whole main_v7).slice (win1_3.rect t)).set ↔ _
  rw [View.set_slice_whole, Rect.mem_set_unit]
  exact Iff.rfl

/-- Every edge's row of the result is in some point's block: edge `e` in point `e / 4096`'s. -/
theorem covered (i : S131072x8.Idx) :
    ∃ t : Fin cfg1.N, (cfg1.win 3).flush t = true ∧ i ∈ ((cfg1.win 3).blk t).view.set := by
  have hi0 : (i 0).val < 131072 := (i 0).isLt
  have hi1 : (i 1).val < 8 := (i 1).isLt
  have hN : cfg1.N = 32 := N_1
  let t : Fin cfg1.N := ⟨(i 0).val / 4096, by rw [hN]; omega⟩
  have ht : t.val = (i 0).val / 4096 := rfl
  obtain ⟨e0, e1, e2, e3, e4, e5, e6, e7⟩ := blockIndex t
  refine ⟨t, flush1_3 t, ?_⟩
  rw [mem_block]
  intro a
  match a with
  | ⟨0, _⟩ =>
    show win1_3.index t (0 : Fin 2) * 4096 ≤ (i 0).val ∧ (i 0).val < win1_3.index t (0 : Fin 2) * 4096 + 4096
    omega
  | ⟨1, _⟩ =>
    show win1_3.index t (1 : Fin 2) * 8 ≤ (i 1).val ∧ (i 1).val < win1_3.index t (1 : Fin 2) * 8 + 8
    omega

/-- THE RESULT ARRAY after region 1: the edge layer of the features, the weight and the bias row as the region finds
    them — every point writes back its block of that one array, and the blocks cover it. -/
theorem region1 (V : (c : Dev nD) → (b : Ref sig .tc) → Buf (Elt Ideal) ((c : Thread nD τ).loc b)) (c : Dev nD) :
    (dat1 (F := Ideal) V c).arrAt 3 cfg1.N = Cert.Spec.edge (V c main_arg1) (V c main_arg5) (V c main_v6) :=
  (dat1 (F := Ideal) V c).arrAt_eq_of_cover 3 (Cert.Spec.edge (V c main_arg1) (V c main_arg5) (V c main_v6))
    (fun t _ => flushed_eq V c t) covered

end Cert.KernelIdeal.RegionValue

end
-- ==== Proof.Region2.lean ====
/-
  Region 2, the output projection: after its eight grid points the output array holds, index by index,
  out[i, j] = Σ_k x[i, k] · w[k, j] + b[0, j]   (16384 rows, 512 features in, 64 out).
  Three steps: one stored block entry by entry (the matrix product at an index, the bias row spread over the rows);
  what grid point t writes back is block t of that one whole-array function (rows 2048 t … 2048 t + 2047 of the
  hidden features against the whole weight and bias); the eight blocks cover the array's 16384 rows.
-/
import proofs.«422085_j75196287418915_1_alg».proof.Proof.Gen.KernelIdeal.Frame
import proofs.«422085_j75196287418915_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.RegionValue

open Idealize.ShloMosaic Idealize.ShloMosaic.TcCoe Idealize.SL.Sem Cert.KernelIdeal Cert.KernelIdeal.Gen
open Idealize.ShloMosaic.Pipeline (Dat Cfg Window)
open Idealize.ShloMosaic.ValueIdx

namespace OutProjection

/-- The zero offsets of a whole-buffer access. -/
theorem zeroOffsets : (![0, 0] : Fin 2 → Nat) = fun _ => 0 := funext fun a => by fin_cases a <;> rfl

/-! ## The matrix product's operand indices

The product contracts the 512 hidden features: columns of the left operand against rows of the right. -/

/-- The left operand's row is the output's row. -/
theorem lhs_row (j : S2048x64.Idx) (k : dot_S2048x512_S512x64_S2048x64_1_0_0_1_n_n.contr.Idx) :
    (dot_S2048x512_S512x64_S2048x64_1_0_0_1_n_n.lhsIdx j k 0).val = (j 0).val := by
  unfold DotDims.lhsIdx
  rw [dif_neg (show ¬(0 : Fin S2048x512.rank) ∈ dot_S2048x512_S512x64_S2048x64_1_0_0_1_n_n.lhsBatch by decide),
    dif_pos (show (0 : Fin S2048x512.rank) ∈ dot_S2048x512_S512x64_S2048x64_1_0_0_1_n_n.lhsNonContracting by decide)]
  rfl

/-- The left operand's column is the contracted feature. -/
theorem lhs_col (j : S2048x64.Idx) (k : dot_S2048x512_S512x64_S2048x64_1_0_0_1_n_n.contr.Idx) :
    (dot_S2048x512_S512x64_S2048x64_1_0_0_1_n_n.lhsIdx j k 1).val = (k ⟨0, by decide⟩).val :=
  dot_S2048x512_S512x64_S2048x64_1_0_0_1_n_n.lhsIdx_val_of_single (cl := 1) rfl j k

/-- The right operand's row is the contracted feature. -/
theorem rhs_row (j : S2048x64.Idx) (k : dot_S2048x512_S512x64_S2048x64_1_0_0_1_n_n.contr.Idx) :
    (dot_S2048x512_S512x64_S2048x64_1_0_0_1_n_n.rhsIdx j k 0).val = (k ⟨0, by decide⟩).val :=
  dot_S2048x512_S512x64_S2048x64_1_0_0_1_n_n.rhsIdx_val_of_single (cr := 0) rfl j k

/-- The right operand's column is the output's column. -/
theorem rhs_col (j : S2048x64.Idx) (k : dot_S2048x512_S512x64_S2048x64_1_0_0_1_n_n.contr.Idx) :
    (dot_S2048x512_S512x64_S2048x64_1_0_0_1_n_n.rhsIdx j k 1).val = (j 1).val := by
  unfold DotDims.rhsIdx
  rw [dif_neg (show ¬(1 : Fin S512x64.rank) ∈ dot_S2048x512_S512x64_S2048x64_1_0_0_1_n_n.rhsBatch by decide),
    dif_pos (show (1 : Fin S512x64.rank) ∈ dot_S2048x512_S512x64_S2048x64_1_0_0_1_n_n.rhsNonContracting by decide)]
  rfl

/-! ## One block of the linear layer, entry by entry -/

/-- Entry (p, q) of the product of a 2048×512 block by the 512×64 weight: the sum over the 512 features. The
    narrowing of the operands is the identity on extended reals, and the accumulator starts at zero. -/
theorem product_apply (x0 : FVec Ideal S2048x512 .f32) (x1 : FVec Ideal S512x64 .f32) (p : Fin 2048) (q : Fin 64) :
    matmul (F := Ideal) dot_S2048x512_S512x64_S2048x64_1_0_0_1_n_n none (truncf .bf16 x0 bitsLt_bf16_f32)
        (truncf .bf16 x1 bitsLt_bf16_f32) (constant S2048x64 .f32 0x00000000#32) (ix2 p q)
      = ∑ k : Fin 512, x0 (ix2 p k) * x1 (ix2 k q) := by
  simp only [matmul]
  rw [Ideal.matmul_constant_zero_apply,
    ← Equiv.sum_comp (contrEquiv1 dot_S2048x512_S512x64_S2048x64_1_0_0_1_n_n 512 rfl rfl).symm]
  refine Finset.sum_congr rfl fun k _ => ?_
  rw [truncf_apply, truncf_apply]
  have c := contrEquiv1_symm_val dot_S2048x512_S512x64_S2048x64_1_0_0_1_n_n 512 rfl rfl k
  have hl : dot_S2048x512_S512x64_S2048x64_1_0_0_1_n_n.lhsIdx (ix2 p q)
      ((contrEquiv1 dot_S2048x512_S512x64_S2048x64_1_0_0_1_n_n 512 rfl rfl).symm k) = ix2 p k := by
    funext a; apply Fin.ext
    match a with
    | ⟨0, _⟩ => exact lhs_row _ _
    | ⟨1, _⟩ => exact (lhs_col _ _).trans c
  have hr : dot_S2048x512_S512x64_S2048x64_1_0_0_1_n_n.rhsIdx (ix2 p q)
      ((contrEquiv1 dot_S2048x512_S512x64_S2048x64_1_0_0_1_n_n 512 rfl rfl).symm k) = ix2 k q := by
    funext a; apply Fin.ext
    match a with
    | ⟨0, _⟩ => exact (rhs_row _ _).trans c
    | ⟨1, _⟩ => exact rhs_col _ _
  rw [hl, hr]

/-- Entry (p, q) of the bias row spread over the block's 2048 rows is the bias at q. -/
theorem bias_apply (x2 : FVec Ideal S1x64 .f32) (p : Fin 2048) (q : Fin 64) :
    broadcastTo S2048x64 (shapeCast S1x64 x2 shapeCasts_S1x64_S1x64) broadcasts_S1x64_S2048x64 (ix2 p q)
      = x2 (ix2 (0 : Fin 1) q) := by
  rw [shapeCast_self]
  exact broadcastTo_apply x2 broadcasts_S1x64_S2048x64 (ix2 p q) (ix2 (0 : Fin 1) q) (fun a => by
    match a with
    | ⟨0, _⟩ => rfl
    | ⟨1, _⟩ => rfl)

/-- Entry (p, q) of what the body stores: row p of the block (re-laid in its own shape, which changes nothing) against
    column q of the weight over the 512 features, plus the bias at q. -/
theorem linear_block_apply (x0 : Vec Ideal S2048x512 .f32) (x1 : Vec Ideal S512x64 .f32) (x2 : Vec Ideal S1x64 .f32)
    (p : Fin 2048) (q : Fin 64) :
    k2_pay1 x0 x1 x2 (ix2 p q) = (∑ k : Fin 512, x0 (ix2 p k) * x1 (ix2 k q)) + x2 (ix2 (0 : Fin 1) q) := by
  unfold k2_pay1
  rw [shapeCast_self, addf_apply, product_apply, bias_apply]

/-! ## From the blocks to the array -/

/-- Where each window's block sits at grid point t, decided over the 8 points: the hidden-feature window and the
    output window are at row block t, column block 0; the weight and the bias are whole at every point. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's block is the linear layer at an array index i, as soon as the three loaded blocks read the arrays
    where i says: row p of the feature block is row i₀ of the features, column q of the weight and bias blocks is
    column i₁ of the weight and the bias. -/
theorem linear_block_eq_lin2 (X : FVec Ideal ⟨2, ![16384, 512]⟩ .f32) (W : FVec Ideal ⟨2, ![512, 64]⟩ .f32)
    (B : FVec Ideal ⟨2, ![1, 64]⟩ .f32)
    (x0 : Vec Ideal S2048x512 .f32) (x1 : Vec Ideal S512x64 .f32) (x2 : Vec Ideal S1x64 .f32)
    (p : Fin 2048) (q : Fin 64) (i : (⟨2, ![16384, 64]⟩ : Shape).Idx)
    (h0 : ∀ k : Fin 512, x0 (ix2 p k) = X (ix2 (i 0) k))
    (h1 : ∀ k : Fin 512, x1 (ix2 k q) = W (ix2 k (i 1)))
    (h2 : x2 (ix2 (0 : Fin 1) q) = B (ix2 (0 : Fin 1) (i 1))) :
    k2_pay1 x0 x1 x2 (ix2 p q) = Cert.Spec.lin2 X W B i := by
  rw [linear_block_apply, h2]
  show _ = (∑ k : Fin 512, X (ix2 (i 0) k) * W (ix2 k (i 1))) + B (ix2 (0 : Fin 1) (i 1))
  exact congrArg (· + B (ix2 (0 : Fin 1) (i 1))) (Finset.sum_congr rfl fun k _ => by rw [h0 k, h1 k])

/-- What grid point t writes back is its block of the linear layer of the arrays as the region finds them. -/
theorem flushed_eq_lin2 (V : (c : Dev nD) → (b : Ref sig .tc) → Buf (Elt Ideal) ((c : Thread nD τ).loc b))
    (c : Dev nD) (t : Fin cfg2.N) :
    (dat2 (F := Ideal) V c).flushed 3 t
      = ((cfg2.win 3).blk t).view.read (Elt Ideal) (Cert.Spec.lin2 (V c main_v32) (V c main_arg7) (V c main_v33)) := by
  show (cfg2.win 3).cut (grid2.coords t) ((dat2 V c).after 3 t) = _
  rw [after2_3]
  unfold out2_3
  rw [View.canon_unit_zero zeroOffsets]
  simp only [View.ld_unit_zero (S := S2048x512) zeroOffsets, View.ld_unit_zero (S := S512x64) zeroOffsets,
    View.ld_unit_zero (S := S1x64) zeroOffsets]
  obtain ⟨e00, e01, e10, e11, e20, e21, e30, e31⟩ := block_indices t
  funext j
  obtain ⟨p, q, rfl⟩ : ∃ (p : Fin 2048) (q : Fin 64), j = ix2 p q := ⟨j 0, j 1, eq_ix2 j⟩
  show k2_pay1 (iblk2 V c 0 t) (iblk2 V c 1 t) (iblk2 V c 2 t) (ix2 p q)
    = Cert.Spec.lin2 (V c main_v32) (V c main_arg7) (V c main_v33) (((cfg2.win 3).blk t).view.emb (ix2 p q))
  refine linear_block_eq_lin2 (V c main_v32) (V c main_arg7) (V c main_v33)
    (iblk2 V c 0 t) (iblk2 V c 1 t) (iblk2 V c 2 t) p q (((cfg2.win 3).blk t).view.emb (ix2 p q))
    (fun k => ?_) (fun k => ?_) ?_
  · -- the feature block's row p is the array's row 2048 t + p, which is the output block's row p
    show V c main_v32 (((cfg2.win 0).blk t).view.emb (ix2 p k))
      = V c main_v32 (ix2 ((((cfg2.win 3).blk t).view.emb (ix2 p q)) 0) k)
    refine congrArg (V c main_v32) (funext fun a => Fin.ext ?_)
    match a with
    | ⟨0, _⟩ =>
      show win2_0.index t (0 : Fin 2) * 2048 + 1 * p.val = win2_3.index t (0 : Fin 2) * 2048 + 1 * p.val
      omega
    | ⟨1, _⟩ =>
      show win2_0.index t (1 : Fin 2) * 512 + 1 * k.val = k.val
      omega
  · -- the weight block is the whole weight; the output block's column q is the array's column q
    show V c main_arg7 (((cfg2.win 1).blk t).view.emb (ix2 k q))
      = V c main_arg7 (ix2 k ((((cfg2.win 3).blk t).view.emb (ix2 p q)) 1))
    refine congrArg (V c main_arg7) (funext fun a => Fin.ext ?_)
    match a with
    | ⟨0, _⟩ =>
      show win2_1.index t (0 : Fin 2) * 512 + 1 * k.val = k.val
      omega
    | ⟨1, _⟩ =>
      show win2_1.index t (1 : Fin 2) * 64 + 1 * q.val = win2_3.index t (1 : Fin 2) * 64 + 1 * q.val
      omega
  · -- the bias block is the whole bias row
    show V c main_v33 (((cfg2.win 2).blk t).view.emb (ix2 (0 : Fin 1) q))
      = V c main_v33 (ix2 (0 : Fin 1) ((((cfg2.win 3).blk t).view.emb (ix2 p q)) 1))
    refine congrArg (V c main_v33) (funext fun a => Fin.ext ?_)
    match a with
    | ⟨0, _⟩ =>
      show win2_2.index t (0 : Fin 2) * 1 + 1 * 0 = 0
      omega
    | ⟨1, _⟩ =>
      show win2_2.index t (1 : Fin 2) * 64 + 1 * q.val = win2_3.index t (1 : Fin 2) * 64 + 1 * q.val
      omega

/-- An index of the output array is in grid point t's block iff each coordinate is in the block's range. -/
theorem mem_out_block_iff (t : Fin cfg2.N) (i : S16384x64.Idx) :
    i ∈ ((cfg2.win 3).blk t).view.set
      ↔ ∀ a : Fin 2, win2_3.index t a * S2048x64.size a ≤ (i a).val
          ∧ (i a).val < win2_3.index t a * S2048x64.size a + S2048x64.size a := by
  show i ∈ ((View.whole main_v34).slice (win2_3.rect t)).set ↔ _
  rw [View.set_slice_whole, Rect.mem_set_unit]
  exact Iff.rfl

/-- Every row r of the output is written back: by grid point r / 2048. -/
theorem out_covered (i : S16384x64.Idx) :
    ∃ t : Fin cfg2.N, (cfg2.win 3).flush t = true ∧ i ∈ ((cfg2.win 3).blk t).view.set := by
  have hi0 : (i 0).val < 16384 := (i 0).isLt
  have hi1 : (i 1).val < 64 := (i 1).isLt
  have hN : cfg2.N = 8 := N_2
  have ht : (i 0).val / 2048 < cfg2.N := by rw [hN]; omega
  obtain ⟨-, -, -, -, -, -, e30, e31⟩ := block_indices ⟨(i 0).val / 2048, ht⟩
  refine ⟨⟨(i 0).val / 2048, ht⟩, flush2_3 _, ?_⟩
  rw [mem_out_block_iff]
  intro a
  match a with
  | ⟨0, _⟩ =>
    show win2_3.index ⟨(i 0).val / 2048, ht⟩ (0 : Fin 2) * 2048 ≤ (i 0).val
      ∧ (i 0).val < win2_3.index ⟨(i 0).val / 2048, ht⟩ (0 : Fin 2) * 2048 + 2048
    rw [e30]
    show (i 0).val / 2048 * 2048 ≤ (i 0).val ∧ (i 0).val < (i 0).val / 2048 * 2048 + 2048
    omega
  | ⟨1, _⟩ =>
    show win2_3.index ⟨(i 0).val / 2048, ht⟩ (1 : Fin 2) * 64 ≤ (i 1).val
      ∧ (i 1).val < win2_3.index ⟨(i 0).val / 2048, ht⟩ (1 : Fin 2) * 64 + 64
    rw [e31]
    omega

end OutProjection

/-- After the eight grid points the output array holds the linear layer of the arrays the region was entered with. -/
theorem region2 (V : (c : Dev nD) → (b : Ref sig .tc) → Buf (Elt Ideal) ((c : Thread nD τ).loc b)) (c : Dev nD) :
    (dat2 (F := Ideal) V c).arrAt 3 cfg2.N = Cert.Spec.lin2 (V c main_v32) (V c main_arg7) (V c main_v33) :=
  (dat2 (F := Ideal) V c).arrAt_eq_of_cover 3 (Cert.Spec.lin2 (V c main_v32) (V c main_arg7) (V c main_v33))
    (fun t _ => OutProjection.flushed_eq_lin2 V c t) OutProjection.out_covered

end Cert.KernelIdeal.RegionValue

end
-- ==== Proof.KernelFold.lean ====
import proofs.«422085_j75196287418915_1_alg».proof.Proof.Gen.KernelIdeal.Frame
import proofs.«422085_j75196287418915_1_alg».proof.Proof.Gen.ReferenceIdeal
import proofs.«422085_j75196287418915_1_alg».proof.Proof.KernelOut
import proofs.«422085_j75196287418915_1_alg».proof.Proof.Region0
import proofs.«422085_j75196287418915_1_alg».proof.Proof.Region1
import proofs.«422085_j75196287418915_1_alg».proof.Proof.Region2
import Idealize.ShloMosaic.Lib.StableHlo.Run

set_option maxRecDepth 16384

noncomputable section

namespace Cert.KernelIdeal.Fold

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

-- the row lookups, the segment sums, the reductions, the exponential and the quotient are carried as opaque functions:
-- every step below rewrites by a named equation and none evaluates them
attribute [local irreducible] Host.gather Host.scatterAdd Host.reduceAdd Host.reduce Host.exp Host.divf

/-! The fold of the TensorCore's buffers through @main, read at the result buffer. Between the three regions the
    host computes, in order: the two id columns of the pair table; the biases as one-row matrices; the rows of the
    node projection at the receiver and at the sender ids; per edge and head the mean of the two rows' sums and the
    edge sum; its leaky rectification and exponential; the segment sums of the weights and of the weighted sender
    rows over the receivers; their quotient. Each stretch is read once, over any contents it starts from, and the
    buffers it does not write are carried across it unchanged. -/

/-- A buffer that none of a stretch's operations writes keeps its contents across the stretch. -/
local macro "untouched" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## The host arithmetic between the regions, as functions -/

/-- A 512-column row table seen as 8 heads of 64 channels. -/
def heads (x : FVec Ideal S131072x512 .f32) : FVec Ideal S131072x8x64 .f32 :=
  shapeCast S131072x8x64 x shapeCasts_S131072x512_S131072x8x64

/-- Per edge and head: the receiver row's and the sender row's channel sums plus the edge sum, over 160. -/
def headMean (r3 s3 : FVec Ideal S131072x8x64 .f32) (es : FVec Ideal S131072x8 .f32) : FVec Ideal S131072x8 .f32 :=
  Host.divf
    (addf (addf (Host.reduceAdd r3 (constant (F := Ideal) S_ .f32 0x00000000#32) reducesTo_S131072x8x64_S131072x8_d2 h_S_)
                (Host.reduceAdd s3 (constant (F := Ideal) S_ .f32 0x00000000#32) reducesTo_S131072x8x64_S131072x8_d2 h_S_)) es)
    (broadcastInDim S131072x8 ![] bcast_S_S131072x8 (constant (F := Ideal) S_ .f32 0x43200000#32))

/-- The leaky rectifier with slope `k` on the negative side. -/
def leaky (a : FVec Ideal S131072x8 .f32) (k : FVec Ideal S_ .f32) : FVec Ideal S131072x8 .f32 :=
  select (cmpf .oge a (broadcastInDim S131072x8 ![] bcast_S_S131072x8 (constant (F := Ideal) S_ .f32 0x00000000#32))) a
    (mulf (broadcastInDim S131072x8 ![] bcast_S_S131072x8 (id k)) a)

/-- From the rectified scores, the sender rows by head and the receiver ids: the weights' exponentials, their
    segment sums over the receivers, the segment sums of the weighted sender rows, and the quotient, flattened. -/
def weighted (lr : FVec Ideal S131072x8 .f32) (s3 : FVec Ideal S131072x8x64 .f32) (recv : IVec S131072 32) :
    FVec Ideal S16384x512 .f32 :=
  shapeCast S16384x512
    (Host.divf
      (Host.scatterAdd scatter_S16384x8x64_S131072x1_S131072x8x64_12_0_0_1
        (broadcastInDim S16384x8x64 ![] bcast_S_S16384x8x64 (constant (F := Ideal) S_ .f32 0x00000000#32))
        (broadcastInDim S131072x1 ![0] bcast_S131072_S131072x1_0 recv)
        (mulf (broadcastInDim S131072x8x64 ![0, 1, 2] bcast_S131072x8x1_S131072x8x64_0_1_2
                (broadcastInDim S131072x8x1 ![0, 1] bcast_S131072x8_S131072x8x1_0_1 (Host.exp lr))) s3))
      (broadcastInDim S16384x8x64 ![0, 1, 2] bcast_S16384x8x1_S16384x8x64_0_1_2
        (broadcastInDim S16384x8x1 ![0, 1] bcast_S16384x8_S16384x8x1_0_1
          (Host.scatterAdd scatter_S16384x8_S131072x1_S131072x8_1_0_0_1
            (broadcastInDim S16384x8 ![] bcast_S_S16384x8 (constant (F := Ideal) S_ .f32 0x00000000#32))
            (broadcastInDim S131072x1 ![0] bcast_S131072_S131072x1_0 recv) (Host.exp lr)))))
    shapeCasts_S16384x8x64_S16384x512

/-- The reference's attention term is these four composed. -/
theorem mid_eq (hr hs : FVec Ideal S131072x512 .f32) (es : FVec Ideal S131072x8 .f32) (recv : IVec S131072 32) :
    Cert.ReferenceIdeal.Term.mid (F := Ideal) hr hs es recv
      = weighted (leaky (headMean (heads hr) (heads hs) es) (constant (F := Ideal) S_ .f32 0x3E4CCCCD#32)) (heads hs) recv := by
  rfl

/-! ## Each stretch of host operations, over any contents `W` it starts from -/

/-- The first lookup: the rows of the node projection at the receiver ids. -/
theorem stretch_take_recv (W : Valuation τ sig (Elt Ideal)) :
    @Eq (FVec Ideal S131072x512 .f32) (StableHlo.after (hostOps2 (F := Ideal)) W (Proc.devRef .tc main_v8))
      (Term.take (F := Ideal) (W (Proc.devRef .tc main_v5)) (W (Proc.devRef .tc main_v1))) := by
  after_results_simp
  rfl

theorem stretch_heads_recv (W : Valuation τ sig (Elt Ideal)) :
    @Eq (FVec Ideal S131072x8x64 .f32) (StableHlo.after (hostOps2_1 (F := Ideal)) W (Proc.devRef .tc main_v9))
      (heads (W (Proc.devRef .tc main_v8))) := by
  after_results
  rfl

/-- The second lookup: the rows of the node projection at the sender ids. -/
theorem stretch_take_send (W : Valuation τ sig (Elt Ideal)) :
    @Eq (FVec Ideal S131072x512 .f32) (StableHlo.after (hostOps2_2 (F := Ideal)) W (Proc.devRef .tc main_v10))
      (Term.take (F := Ideal) (W (Proc.devRef .tc main_v5)) (W (Proc.devRef .tc main_v3))) := by
  after_results_simp
  rfl

theorem stretch_heads_send (W : Valuation τ sig (Elt Ideal)) :
    @Eq (FVec Ideal S131072x8x64 .f32) (StableHlo.after (hostOps2_3 (F := Ideal)) W (Proc.devRef .tc main_v11))
      (heads (W (Proc.devRef .tc main_v10))) := by
  after_results
  rfl

theorem stretch_mean (W : Valuation τ sig (Elt Ideal)) :
    @Eq (FVec Ideal S131072x8 .f32) (StableHlo.after (hostOps2_3 (F := Ideal)) W (Proc.devRef .tc main_v17))
      (headMean (W (Proc.devRef .tc main_v9)) (heads (W (Proc.devRef .tc main_v10))) (W (Proc.devRef .tc main_v7))) := by
  after_results
  rfl

theorem stretch_slope (W : Valuation τ sig (Elt Ideal)) :
    @Eq (FVec Ideal S_ .f32) (StableHlo.after (hostOps2_3 (F := Ideal)) W (Proc.devRef .tc main_cst_2))
      (constant (F := Ideal) S_ .f32 0x3E4CCCCD#32) := by
  after_results

theorem stretch_leaky (W : Valuation τ sig (Elt Ideal)) :
    @Eq (FVec Ideal S131072x8 .f32) (StableHlo.after (hostOps2_4 (F := Ideal)) W (Proc.devRef .tc main_v18))
      (leaky (W (Proc.devRef .tc main_v17)) (W (Proc.devRef .tc main_cst_2))) := by
  after_results_simp
  rfl

theorem stretch_weighted (W : Valuation τ sig (Elt Ideal)) :
    @Eq (FVec Ideal S16384x512 .f32) (StableHlo.after (hostOps2_5 (F := Ideal)) W (Proc.devRef .tc main_v32))
      (weighted (W (Proc.devRef .tc main_v18)) (W (Proc.devRef .tc main_v11)) (W (Proc.devRef .tc main_v1))) := by
  after_results_simp
  rfl

theorem stretch_bias2 (W : Valuation τ sig (Elt Ideal)) :
    @Eq (FVec Ideal S1x64 .f32) (StableHlo.after (hostOps2_5 (F := Ideal)) W (Proc.devRef .tc main_v33))
      (shapeCast S1x64 (W (Proc.devRef .tc main_arg8) : FVec Ideal S64 .f32) shapeCasts_S64_S1x64) := by
  after_results
  rfl

/-! ## The fold, buffer by buffer -/

section Walk

variable (c : Dev nD)

/-! ### Up to region 0: the id columns, the first bias row, and the arguments region 0 reads -/

theorem W1_v1 : @Eq (IVec S131072 32) (W1 m ρ c (Proc.devRef .tc main_v1)) (Term.col0 (m ((c : Thread nD τ).loc main_arg2))) := by
  show StableHlo.after hostOps0 (W0 m ρ c) (Proc.devRef .tc main_v1) = _
  after_results
  rfl
theorem W1_v3 : @Eq (IVec S131072 32) (W1 m ρ c (Proc.devRef .tc main_v3)) (Term.col1 (m ((c : Thread nD τ).loc main_arg2))) := by
  show StableHlo.after hostOps0 (W0 m ρ c) (Proc.devRef .tc main_v3) = _
  after_results
  rfl
theorem W1_v4 : @Eq (FVec Ideal S1x512 .f32) (W1 m ρ c (Proc.devRef .tc main_v4)) (shapeCast S1x512 (m ((c : Thread nD τ).loc main_arg4)) shapeCasts_S512_S1x512) := by
  show StableHlo.after hostOps0 (W0 m ρ c) (Proc.devRef .tc main_v4) = _
  after_results
  rfl
theorem W1_arg0 : W1 m ρ c (Proc.devRef .tc main_arg0) = (m ((c : Thread nD τ).loc main_arg0)) := by
  refine (show W1 m ρ c (Proc.devRef .tc main_arg0) = W0 m ρ c (Proc.devRef .tc main_arg0) by untouched hostOps0).trans ?_
  rfl
theorem W1_arg1 : W1 m ρ c (Proc.devRef .tc main_arg1) = (m ((c : Thread nD τ).loc main_arg1)) := by
  refine (show W1 m ρ c (Proc.devRef .tc main_arg1) = W0 m ρ c (Proc.devRef .tc main_arg1) by untouched hostOps0).trans ?_
  rfl
theorem W1_arg3 : W1 m ρ c (Proc.devRef .tc main_arg3) = (m ((c : Thread nD τ).loc main_arg3)) := by
  refine (show W1 m ρ c (Proc.devRef .tc main_arg3) = W0 m ρ c (Proc.devRef .tc main_arg3) by untouched hostOps0).trans ?_
  rfl
theorem W1_arg5 : W1 m ρ c (Proc.devRef .tc main_arg5) = (m ((c : Thread nD τ).loc main_arg5)) := by
  refine (show W1 m ρ c (Proc.devRef .tc main_arg5) = W0 m ρ c (Proc.devRef .tc main_arg5) by untouched hostOps0).trans ?_
  rfl
theorem W1_arg6 : W1 m ρ c (Proc.devRef .tc main_arg6) = (m ((c : Thread nD τ).loc main_arg6)) := by
  refine (show W1 m ρ c (Proc.devRef .tc main_arg6) = W0 m ρ c (Proc.devRef .tc main_arg6) by untouched hostOps0).trans ?_
  rfl

/-- Region 0 leaves the node projection in its output array. -/
theorem W2_v5 : @Eq (FVec Ideal S16384x512 .f32) (W2 m ρ c (Proc.devRef .tc main_v5)) (Term.hidK (m ((c : Thread nD τ).loc main_arg0)) (m ((c : Thread nD τ).loc main_arg3)) (m ((c : Thread nD τ).loc main_arg4))) := by
  refine (W2_arr m ρ c 3).trans ?_
  refine (RegionValue.region0 (V1 m ρ) c).trans ?_
  show Cert.Spec.lin0 (W1 m ρ c (Proc.devRef .tc main_arg0)) (W1 m ρ c (Proc.devRef .tc main_arg3)) (W1 m ρ c (Proc.devRef .tc main_v4)) = _
  rw [W1_arg0 m ρ c, W1_arg3 m ρ c, W1_v4 m ρ c]
  rfl

/-! ### Up to region 1: the second bias row and the arguments region 1 reads -/

theorem W3_v6 : @Eq (FVec Ideal S1x256 .f32) (W3 m ρ c (Proc.devRef .tc main_v6)) (shapeCast S1x256 (m ((c : Thread nD τ).loc main_arg6)) shapeCasts_S256_S1x256) := by
  have e : @Eq (FVec Ideal S1x256 .f32) (W3 m ρ c (Proc.devRef .tc main_v6))
      (shapeCast S1x256 (W2 m ρ c (Proc.devRef .tc main_arg6) : FVec Ideal S256 .f32) shapeCasts_S256_S1x256) := by
    show StableHlo.after hostOps1 (W2 m ρ c) (Proc.devRef .tc main_v6) = _
    after_results
    rfl
  refine e.trans ?_
  rw [show W2 m ρ c (Proc.devRef .tc main_arg6) = (m ((c : Thread nD τ).loc main_arg6)) from (W2_of_ne m ρ c main_arg6 (by decide)).trans (W1_arg6 m ρ c)]
theorem W3_arg1 : W3 m ρ c (Proc.devRef .tc main_arg1) = (m ((c : Thread nD τ).loc main_arg1)) := by
  refine (show W3 m ρ c (Proc.devRef .tc main_arg1) = W2 m ρ c (Proc.devRef .tc main_arg1) by untouched hostOps1).trans ?_
  refine (W2_of_ne m ρ c main_arg1 (by decide)).trans ?_
  exact W1_arg1 m ρ c
theorem W3_arg5 : W3 m ρ c (Proc.devRef .tc main_arg5) = (m ((c : Thread nD τ).loc main_arg5)) := by
  refine (show W3 m ρ c (Proc.devRef .tc main_arg5) = W2 m ρ c (Proc.devRef .tc main_arg5) by untouched hostOps1).trans ?_
  refine (W2_of_ne m ρ c main_arg5 (by decide)).trans ?_
  exact W1_arg5 m ρ c

/-- Region 1 leaves the per-head edge sums in its output array. -/
theorem W4_v7 : @Eq (FVec Ideal S131072x8 .f32) (W4 m ρ c (Proc.devRef .tc main_v7)) (Term.esumK (m ((c : Thread nD τ).loc main_arg1)) (m ((c : Thread nD τ).loc main_arg5)) (m ((c : Thread nD τ).loc main_arg6))) := by
  refine (W4_arr m ρ c 3).trans ?_
  refine (RegionValue.region1 (V3 m ρ) c).trans ?_
  show Cert.Spec.edge (W3 m ρ c (Proc.devRef .tc main_arg1)) (W3 m ρ c (Proc.devRef .tc main_arg5)) (W3 m ρ c (Proc.devRef .tc main_v6)) = _
  rw [W3_arg1 m ρ c, W3_arg5 m ρ c, W3_v6 m ρ c]
  rfl
theorem W4_v5 : @Eq (FVec Ideal S16384x512 .f32) (W4 m ρ c (Proc.devRef .tc main_v5)) (Term.hidK (m ((c : Thread nD τ).loc main_arg0)) (m ((c : Thread nD τ).loc main_arg3)) (m ((c : Thread nD τ).loc main_arg4))) := by
  refine (W4_of_ne m ρ c main_v5 (by decide)).trans ?_
  refine (show W3 m ρ c (Proc.devRef .tc main_v5) = W2 m ρ c (Proc.devRef .tc main_v5) by untouched hostOps1).trans ?_
  exact W2_v5 m ρ c
theorem W4_v1 : @Eq (IVec S131072 32) (W4 m ρ c (Proc.devRef .tc main_v1)) (Term.col0 (m ((c : Thread nD τ).loc main_arg2))) := by
  refine (W4_of_ne m ρ c main_v1 (by decide)).trans ?_
  refine (show W3 m ρ c (Proc.devRef .tc main_v1) = W2 m ρ c (Proc.devRef .tc main_v1) by untouched hostOps1).trans ?_
  refine (W2_of_ne m ρ c main_v1 (by decide)).trans ?_
  exact W1_v1 m ρ c
theorem W4_v3 : @Eq (IVec S131072 32) (W4 m ρ c (Proc.devRef .tc main_v3)) (Term.col1 (m ((c : Thread nD τ).loc main_arg2))) := by
  refine (W4_of_ne m ρ c main_v3 (by decide)).trans ?_
  refine (show W3 m ρ c (Proc.devRef .tc main_v3) = W2 m ρ c (Proc.devRef .tc main_v3) by untouched hostOps1).trans ?_
  refine (W2_of_ne m ρ c main_v3 (by decide)).trans ?_
  exact W1_v3 m ρ c

/-! ### Between regions 1 and 2 -/

theorem W5_v1 : @Eq (IVec S131072 32) (W5 m ρ c (Proc.devRef .tc main_v1)) (Term.col0 (m ((c : Thread nD τ).loc main_arg2))) := by
  refine (show W5 m ρ c (Proc.devRef .tc main_v1) = W4 m ρ c (Proc.devRef .tc main_v1) by untouched hostOps2).trans ?_
  exact W4_v1 m ρ c
theorem W5_v3 : @Eq (IVec S131072 32) (W5 m ρ c (Proc.devRef .tc main_v3)) (Term.col1 (m ((c : Thread nD τ).loc main_arg2))) := by
  refine (show W5 m ρ c (Proc.devRef .tc main_v3) = W4 m ρ c (Proc.devRef .tc main_v3) by untouched hostOps2).trans ?_
  exact W4_v3 m ρ c
theorem W5_v5 : @Eq (FVec Ideal S16384x512 .f32) (W5 m ρ c (Proc.devRef .tc main_v5)) (Term.hidK (m ((c : Thread nD τ).loc main_arg0)) (m ((c : Thread nD τ).loc main_arg3)) (m ((c : Thread nD τ).loc main_arg4))) := by
  refine (show W5 m ρ c (Proc.devRef .tc main_v5) = W4 m ρ c (Proc.devRef .tc main_v5) by untouched hostOps2).trans ?_
  exact W4_v5 m ρ c
theorem W5_v7 : @Eq (FVec Ideal S131072x8 .f32) (W5 m ρ c (Proc.devRef .tc main_v7)) (Term.esumK (m ((c : Thread nD τ).loc main_arg1)) (m ((c : Thread nD τ).loc main_arg5)) (m ((c : Thread nD τ).loc main_arg6))) := by
  refine (show W5 m ρ c (Proc.devRef .tc main_v7) = W4 m ρ c (Proc.devRef .tc main_v7) by untouched hostOps2).trans ?_
  exact W4_v7 m ρ c
theorem W5_v8 : @Eq (FVec Ideal S131072x512 .f32) (W5 m ρ c (Proc.devRef .tc main_v8)) (Term.take (F := Ideal) (Term.hidK (m ((c : Thread nD τ).loc main_arg0)) (m ((c : Thread nD τ).loc main_arg3)) (m ((c : Thread nD τ).loc main_arg4))) (Term.col0 (m ((c : Thread nD τ).loc main_arg2)))) := by
  refine (stretch_take_recv (W4 m ρ c)).trans ?_
  rw [W4_v5 m ρ c, W4_v1 m ρ c]
theorem W6_v1 : @Eq (IVec S131072 32) (W6 m ρ c (Proc.devRef .tc main_v1)) (Term.col0 (m ((c : Thread nD τ).loc main_arg2))) := by
  refine (show W6 m ρ c (Proc.devRef .tc main_v1) = W5 m ρ c (Proc.devRef .tc main_v1) by untouched hostOps2_1).trans ?_
  exact W5_v1 m ρ c
theorem W6_v3 : @Eq (IVec S131072 32) (W6 m ρ c (Proc.devRef .tc main_v3)) (Term.col1 (m ((c : Thread nD τ).loc main_arg2))) := by
  refine (show W6 m ρ c (Proc.devRef .tc main_v3) = W5 m ρ c (Proc.devRef .tc main_v3) by untouched hostOps2_1).trans ?_
  exact W5_v3 m ρ c
theorem W6_v5 : @Eq (FVec Ideal S16384x512 .f32) (W6 m ρ c (Proc.devRef .tc main_v5)) (Term.hidK (m ((c : Thread nD τ).loc main_arg0)) (m ((c : Thread nD τ).loc main_arg3)) (m ((c : Thread nD τ).loc main_arg4))) := by
  refine (show W6 m ρ c (Proc.devRef .tc main_v5) = W5 m ρ c (Proc.devRef .tc main_v5) by untouched hostOps2_1).trans ?_
  exact W5_v5 m ρ c
theorem W6_v7 : @Eq (FVec Ideal S131072x8 .f32) (W6 m ρ c (Proc.devRef .tc main_v7)) (Term.esumK (m ((c : Thread nD τ).loc main_arg1)) (m ((c : Thread nD τ).loc main_arg5)) (m ((c : Thread nD τ).loc main_arg6))) := by
  refine (show W6 m ρ c (Proc.devRef .tc main_v7) = W5 m ρ c (Proc.devRef .tc main_v7) by untouched hostOps2_1).trans ?_
  exact W5_v7 m ρ c
theorem W6_v9 : @Eq (FVec Ideal S131072x8x64 .f32) (W6 m ρ c (Proc.devRef .tc main_v9)) (heads (Term.take (F := Ideal) (Term.hidK (m ((c : Thread nD τ).loc main_arg0)) (m ((c : Thread nD τ).loc main_arg3)) (m ((c : Thread nD τ).loc main_arg4))) (Term.col0 (m ((c : Thread nD τ).loc main_arg2))))) := by
  refine (stretch_heads_recv (W5 m ρ c)).trans ?_
  rw [W5_v8 m ρ c]
theorem W7_v1 : @Eq (IVec S131072 32) (W7 m ρ c (Proc.devRef .tc main_v1)) (Term.col0 (m ((c : Thread nD τ).loc main_arg2))) := by
  refine (show W7 m ρ c (Proc.devRef .tc main_v1) = W6 m ρ c (Proc.devRef .tc main_v1) by untouched hostOps2_2).trans ?_
  exact W6_v1 m ρ c
theorem W7_v7 : @Eq (FVec Ideal S131072x8 .f32) (W7 m ρ c (Proc.devRef .tc main_v7)) (Term.esumK (m ((c : Thread nD τ).loc main_arg1)) (m ((c : Thread nD τ).loc main_arg5)) (m ((c : Thread nD τ).loc main_arg6))) := by
  refine (show W7 m ρ c (Proc.devRef .tc main_v7) = W6 m ρ c (Proc.devRef .tc main_v7) by untouched hostOps2_2).trans ?_
  exact W6_v7 m ρ c
theorem W7_v9 : @Eq (FVec Ideal S131072x8x64 .f32) (W7 m ρ c (Proc.devRef .tc main_v9)) (heads (Term.take (F := Ideal) (Term.hidK (m ((c : Thread nD τ).loc main_arg0)) (m ((c : Thread nD τ).loc main_arg3)) (m ((c : Thread nD τ).loc main_arg4))) (Term.col0 (m ((c : Thread nD τ).loc main_arg2))))) := by
  refine (show W7 m ρ c (Proc.devRef .tc main_v9) = W6 m ρ c (Proc.devRef .tc main_v9) by untouched hostOps2_2).trans ?_
  exact W6_v9 m ρ c
theorem W7_v10 : @Eq (FVec Ideal S131072x512 .f32) (W7 m ρ c (Proc.devRef .tc main_v10)) (Term.take (F := Ideal) (Term.hidK (m ((c : Thread nD τ).loc main_arg0)) (m ((c : Thread nD τ).loc main_arg3)) (m ((c : Thread nD τ).loc main_arg4))) (Term.col1 (m ((c : Thread nD τ).loc main_arg2)))) := by
  refine (stretch_take_send (W6 m ρ c)).trans ?_
  rw [W6_v5 m ρ c, W6_v3 m ρ c]
theorem W8_v1 : @Eq (IVec S131072 32) (W8 m ρ c (Proc.devRef .tc main_v1)) (Term.col0 (m ((c : Thread nD τ).loc main_arg2))) := by
  refine (show W8 m ρ c (Proc.devRef .tc main_v1) = W7 m ρ c (Proc.devRef .tc main_v1) by untouched hostOps2_3).trans ?_
  exact W7_v1 m ρ c
theorem W8_v11 : @Eq (FVec Ideal S131072x8x64 .f32) (W8 m ρ c (Proc.devRef .tc main_v11)) (heads (Term.take (F := Ideal) (Term.hidK (m ((c : Thread nD τ).loc main_arg0)) (m ((c : Thread nD τ).loc main_arg3)) (m ((c : Thread nD τ).loc main_arg4))) (Term.col1 (m ((c : Thread nD τ).loc main_arg2))))) := by
  refine (stretch_heads_send (W7 m ρ c)).trans ?_
  rw [W7_v10 m ρ c]
theorem W8_slope : @Eq (FVec Ideal S_ .f32) (W8 m ρ c (Proc.devRef .tc main_cst_2)) (constant (F := Ideal) S_ .f32 0x3E4CCCCD#32) :=
  stretch_slope (W7 m ρ c)
theorem W8_v17 : @Eq (FVec Ideal S131072x8 .f32) (W8 m ρ c (Proc.devRef .tc main_v17)) (headMean (heads (Term.take (F := Ideal) (Term.hidK (m ((c : Thread nD τ).loc main_arg0)) (m ((c : Thread nD τ).loc main_arg3)) (m ((c : Thread nD τ).loc main_arg4))) (Term.col0 (m ((c : Thread nD τ).loc main_arg2))))) (heads (Term.take (F := Ideal) (Term.hidK (m ((c : Thread nD τ).loc main_arg0)) (m ((c : Thread nD τ).loc main_arg3)) (m ((c : Thread nD τ).loc main_arg4))) (Term.col1 (m ((c : Thread nD τ).loc main_arg2))))) (Term.esumK (m ((c : Thread nD τ).loc main_arg1)) (m ((c : Thread nD τ).loc main_arg5)) (m ((c : Thread nD τ).loc main_arg6)))) := by
  refine (stretch_mean (W7 m ρ c)).trans ?_
  rw [W7_v9 m ρ c, W7_v10 m ρ c, W7_v7 m ρ c]
theorem W9_v1 : @Eq (IVec S131072 32) (W9 m ρ c (Proc.devRef .tc main_v1)) (Term.col0 (m ((c : Thread nD τ).loc main_arg2))) := by
  refine (show W9 m ρ c (Proc.devRef .tc main_v1) = W8 m ρ c (Proc.devRef .tc main_v1) by untouched hostOps2_4).trans ?_
  exact W8_v1 m ρ c
theorem W9_v11 : @Eq (FVec Ideal S131072x8x64 .f32) (W9 m ρ c (Proc.devRef .tc main_v11)) (heads (Term.take (F := Ideal) (Term.hidK (m ((c : Thread nD τ).loc main_arg0)) (m ((c : Thread nD τ).loc main_arg3)) (m ((c : Thread nD τ).loc main_arg4))) (Term.col1 (m ((c : Thread nD τ).loc main_arg2))))) := by
  refine (show W9 m ρ c (Proc.devRef .tc main_v11) = W8 m ρ c (Proc.devRef .tc main_v11) by untouched hostOps2_4).trans ?_
  exact W8_v11 m ρ c
theorem W9_v18 : @Eq (FVec Ideal S131072x8 .f32) (W9 m ρ c (Proc.devRef .tc main_v18)) (leaky (headMean (heads (Term.take (F := Ideal) (Term.hidK (m ((c : Thread nD τ).loc main_arg0)) (m ((c : Thread nD τ).loc main_arg3)) (m ((c : Thread nD τ).loc main_arg4))) (Term.col0 (m ((c : Thread nD τ).loc main_arg2))))) (heads (Term.take (F := Ideal) (Term.hidK (m ((c : Thread nD τ).loc main_arg0)) (m ((c : Thread nD τ).loc main_arg3)) (m ((c : Thread nD τ).loc main_arg4))) (Term.col1 (m ((c : Thread nD τ).loc main_arg2))))) (Term.esumK (m ((c : Thread nD τ).loc main_arg1)) (m ((c : Thread nD τ).loc main_arg5)) (m ((c : Thread nD τ).loc main_arg6)))) (constant (F := Ideal) S_ .f32 0x3E4CCCCD#32)) := by
  refine (stretch_leaky (W8 m ρ c)).trans ?_
  rw [W8_v17 m ρ c, W8_slope m ρ c]

/-- Region 2's first operand: the attention-weighted average of the senders' rows. -/
theorem W10_v32 : @Eq (FVec Ideal S16384x512 .f32) (W10 m ρ c (Proc.devRef .tc main_v32)) (Cert.ReferenceIdeal.Term.mid (F := Ideal) (Term.take (F := Ideal) (Term.hidK (m ((c : Thread nD τ).loc main_arg0)) (m ((c : Thread nD τ).loc main_arg3)) (m ((c : Thread nD τ).loc main_arg4))) (Term.col0 (m ((c : Thread nD τ).loc main_arg2)))) (Term.take (F := Ideal) (Term.hidK (m ((c : Thread nD τ).loc main_arg0)) (m ((c : Thread nD τ).loc main_arg3)) (m ((c : Thread nD τ).loc main_arg4))) (Term.col1 (m ((c : Thread nD τ).loc main_arg2)))) (Term.esumK (m ((c : Thread nD τ).loc main_arg1)) (m ((c : Thread nD τ).loc main_arg5)) (m ((c : Thread nD τ).loc main_arg6))) (Term.col0 (m ((c : Thread nD τ).loc main_arg2)))) := by
  refine (stretch_weighted (W9 m ρ c)).trans ?_
  rw [W9_v18 m ρ c, W9_v11 m ρ c, W9_v1 m ρ c]
  exact (mid_eq _ _ _ _).symm

theorem W10_arg7 : W10 m ρ c (Proc.devRef .tc main_arg7) = (m ((c : Thread nD τ).loc main_arg7)) := by
  refine Eq.trans ?_ (W11_main_arg7 m ρ c)
  exact (((W11_arr m ρ c 1).trans (((dat2 (V10 m ρ) c).arrAt_in 1 rfl _).trans (A_eq2 (V10 m ρ) c 1)))).symm

theorem W10_v33 : @Eq (FVec Ideal S1x64 .f32) (W10 m ρ c (Proc.devRef .tc main_v33)) (shapeCast S1x64 (m ((c : Thread nD τ).loc main_arg8)) shapeCasts_S64_S1x64) := by
  refine (stretch_bias2 (W9 m ρ c)).trans ?_
  rw [show W9 m ρ c (Proc.devRef .tc main_arg8) = (m ((c : Thread nD τ).loc main_arg8)) from
    ((show W10 m ρ c (Proc.devRef .tc main_arg8) = W9 m ρ c (Proc.devRef .tc main_arg8) by untouched hostOps2_5).symm.trans
      (W11_of_ne m ρ c main_arg8 (by decide)).symm).trans (W11_main_arg8 m ρ c)]

end Walk

/-! ## The result -/

theorem result_eq (c : Dev nD) :
    W11 (F := Ideal) m ρ c (Proc.devRef .tc main_v34)
      = Term.outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W11_arr m ρ c 3).trans ?_
  refine (RegionValue.region2 (V10 m ρ) c).trans ?_
  show Cert.Spec.lin2 (W10 m ρ c (Proc.devRef .tc main_v32)) (W10 m ρ c (Proc.devRef .tc main_arg7)) (W10 m ρ c (Proc.devRef .tc main_v33)) = _
  rw [W10_v32 m ρ c, W10_arg7 m ρ c, W10_v33 m ρ c]
  rfl

end Cert.KernelIdeal.Fold

end
-- ==== Proof.RefRun.lean ====
import proofs.«422085_j75196287418915_1_alg».proof.Proof.Gen.ReferenceIdeal
import proofs.«422085_j75196287418915_1_alg».proof.Proof.RefTerm
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The reference's 72 operations in program order: the 45 of @main before the call of the leaky
    rectifier, that function's six with the selection it calls in turn (each over the call's own
    buffers), and the 20 of @main after it. -/
abbrev ops : List (HloOp τ sig (Elt F)) :=
  [ unary main_arg2 main_v0 ((extractStridedSlice S131072x1 ![0, 0] · slices_S131072x2_S131072x1_0_0) : (⟨S131072x2, .i32⟩ : BufTy).Contents (Elt F) → (⟨S131072x1, .i32⟩ : BufTy).Contents (Elt F)),
    reshape main_v0 main_v1 rfl shapeCasts_S131072x1_S131072,
    unary main_arg2 main_v2 ((extractStridedSlice S131072x1 ![0, 1] · slices_S131072x2_S131072x1_0_1) : (⟨S131072x2, .i32⟩ : BufTy).Contents (Elt F) → (⟨S131072x1, .i32⟩ : BufTy).Contents (Elt F)),
    reshape main_v2 main_v3 rfl shapeCasts_S131072x1_S131072,
    binary main_arg0 main_arg3 main_v4 ((fun l r => Host.dotGeneral dot_S16384x64_S64x512_S16384x512_1_0_0_1_n_n none l r) : (⟨S16384x64, .f32⟩ : BufTy).Contents (Elt F) → (⟨S64x512, .f32⟩ : BufTy).Contents (Elt F) → (⟨S16384x512, .f32⟩ : BufTy).Contents (Elt F)),
    unary main_arg4 main_v5 (broadcastInDim S1x512 ![1] bcast_S512_S1x512_1 : (⟨S512, .f32⟩ : BufTy).Contents (Elt F) → (⟨S1x512, .f32⟩ : BufTy).Contents (Elt F)),
    unary main_v5 main_v6 (broadcastInDim S16384x512 ![0, 1] bcast_S1x512_S16384x512_0_1 : (⟨S1x512, .f32⟩ : BufTy).Contents (Elt F) → (⟨S16384x512, .f32⟩ : BufTy).Contents (Elt F)),
    binary main_v4 main_v6 main_v7 (addf : (⟨S16384x512, .f32⟩ : BufTy).Contents (Elt F) → (⟨S16384x512, .f32⟩ : BufTy).Contents (Elt F) → (⟨S16384x512, .f32⟩ : BufTy).Contents (Elt F)),
    binary main_arg1 main_arg5 main_v8 ((fun l r => Host.dotGeneral dot_S131072x32_S32x256_S131072x256_1_0_0_1_n_n none l r) : (⟨S131072x32, .f32⟩ : BufTy).Contents (Elt F) → (⟨S32x256, .f32⟩ : BufTy).Contents (Elt F) → (⟨S131072x256, .f32⟩ : BufTy).Contents (Elt F)),
    unary main_arg6 main_v9 (broadcastInDim S1x256 ![1] bcast_S256_S1x256_1 : (⟨S256, .f32⟩ : BufTy).Contents (Elt F) → (⟨S1x256, .f32⟩ : BufTy).Contents (Elt F)),
    unary main_v9 main_v10 (broadcastInDim S131072x256 ![0, 1] bcast_S1x256_S131072x256_0_1 : (⟨S1x256, .f32⟩ : BufTy).Contents (Elt F) → (⟨S131072x256, .f32⟩ : BufTy).Contents (Elt F)),
    binary main_v8 main_v10 main_v11 (addf : (⟨S131072x256, .f32⟩ : BufTy).Contents (Elt F) → (⟨S131072x256, .f32⟩ : BufTy).Contents (Elt F) → (⟨S131072x256, .f32⟩ : BufTy).Contents (Elt F)),
    reshape main_v11 main_v12 rfl shapeCasts_S131072x256_S131072x8x32,
    nullary main_c (constantI S_ 32 0#32),
    unary main_c main_v13 (broadcastInDim S131072 ![] bcast_S_S131072 : (⟨S_, .i32⟩ : BufTy).Contents (Elt F) → (⟨S131072, .i32⟩ : BufTy).Contents (Elt F)),
    binary main_v1 main_v13 main_v14 (cmpi .slt : (⟨S131072, .i32⟩ : BufTy).Contents (Elt F) → (⟨S131072, .i32⟩ : BufTy).Contents (Elt F) → (⟨S131072, .i1⟩ : BufTy).Contents (Elt F)),
    nullary main_c_0 (constantI S_ 32 16384#32),
    unary main_c_0 main_v15 (broadcastInDim S131072 ![] bcast_S_S131072 : (⟨S_, .i32⟩ : BufTy).Contents (Elt F) → (⟨S131072, .i32⟩ : BufTy).Contents (Elt F)),
    binary main_v1 main_v15 main_v16 (addi : (⟨S131072, .i32⟩ : BufTy).Contents (Elt F) → (⟨S131072, .i32⟩ : BufTy).Contents (Elt F) → (⟨S131072, .i32⟩ : BufTy).Contents (Elt F)),
    ternary main_v14 main_v16 main_v1 main_v17 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v17 main_v18 (broadcastInDim S131072x1 ![0] bcast_S131072_S131072x1_0 : (⟨S131072, .i32⟩ : BufTy).Contents (Elt F) → (⟨S131072x1, .i32⟩ : BufTy).Contents (Elt F)),
    binary main_v7 main_v18 main_v19 ((fun x i => Host.gather gather_S16384x512_S131072x1_S131072x512_1_0_n_n_0_1_1512 x i) : (⟨S16384x512, .f32⟩ : BufTy).Contents (Elt F) → (⟨S131072x1, .i32⟩ : BufTy).Contents (Elt F) → (⟨S131072x512, .f32⟩ : BufTy).Contents (Elt F)),
    reshape main_v19 main_v20 rfl shapeCasts_S131072x512_S131072x8x64,
    nullary main_c_1 (constantI S_ 32 0#32),
    unary main_c_1 main_v21 (broadcastInDim S131072 ![] bcast_S_S131072 : (⟨S_, .i32⟩ : BufTy).Contents (Elt F) → (⟨S131072, .i32⟩ : BufTy).Contents (Elt F)),
    binary main_v3 main_v21 main_v22 (cmpi .slt : (⟨S131072, .i32⟩ : BufTy).Contents (Elt F) → (⟨S131072, .i32⟩ : BufTy).Contents (Elt F) → (⟨S131072, .i1⟩ : BufTy).Contents (Elt F)),
    nullary main_c_2 (constantI S_ 32 16384#32),
    unary main_c_2 main_v23 (broadcastInDim S131072 ![] bcast_S_S131072 : (⟨S_, .i32⟩ : BufTy).Contents (Elt F) → (⟨S131072, .i32⟩ : BufTy).Contents (Elt F)),
    binary main_v3 main_v23 main_v24 (addi : (⟨S131072, .i32⟩ : BufTy).Contents (Elt F) → (⟨S131072, .i32⟩ : BufTy).Contents (Elt F) → (⟨S131072, .i32⟩ : BufTy).Contents (Elt F)),
    ternary main_v22 main_v24 main_v3 main_v25 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v25 main_v26 (broadcastInDim S131072x1 ![0] bcast_S131072_S131072x1_0 : (⟨S131072, .i32⟩ : BufTy).Contents (Elt F) → (⟨S131072x1, .i32⟩ : BufTy).Contents (Elt F)),
    binary main_v7 main_v26 main_v27 ((fun x i => Host.gather gather_S16384x512_S131072x1_S131072x512_1_0_n_n_0_1_1512 x i) : (⟨S16384x512, .f32⟩ : BufTy).Contents (Elt F) → (⟨S131072x1, .i32⟩ : BufTy).Contents (Elt F) → (⟨S131072x512, .f32⟩ : BufTy).Contents (Elt F)),
    reshape main_v27 main_v28 rfl shapeCasts_S131072x512_S131072x8x64,
    nullary main_cst (constant S_ .f32 0x00000000#32),
    binary main_v20 main_cst main_v29 ((fun x v => Host.reduceAdd x v reducesTo_S131072x8x64_S131072x8_d2 h_S_) : (⟨S131072x8x64, .f32⟩ : BufTy).Contents (Elt F) → (⟨S_, .f32⟩ : BufTy).Contents (Elt F) → (⟨S131072x8, .f32⟩ : BufTy).Contents (Elt F)),
    nullary main_cst_3 (constant S_ .f32 0x00000000#32),
    binary main_v28 main_cst_3 main_v30 ((fun x v => Host.reduceAdd x v reducesTo_S131072x8x64_S131072x8_d2 h_S_) : (⟨S131072x8x64, .f32⟩ : BufTy).Contents (Elt F) → (⟨S_, .f32⟩ : BufTy).Contents (Elt F) → (⟨S131072x8, .f32⟩ : BufTy).Contents (Elt F)),
    binary main_v29 main_v30 main_v31 (addf : (⟨S131072x8, .f32⟩ : BufTy).Contents (Elt F) → (⟨S131072x8, .f32⟩ : BufTy).Contents (Elt F) → (⟨S131072x8, .f32⟩ : BufTy).Contents (Elt F)),
    nullary main_cst_4 (constant S_ .f32 0x00000000#32),
    binary main_v12 main_cst_4 main_v32 ((fun x v => Host.reduceAdd x v reducesTo_S131072x8x32_S131072x8_d2 h_S_) : (⟨S131072x8x32, .f32⟩ : BufTy).Contents (Elt F) → (⟨S_, .f32⟩ : BufTy).Contents (Elt F) → (⟨S131072x8, .f32⟩ : BufTy).Contents (Elt F)),
    binary main_v31 main_v32 main_v33 (addf : (⟨S131072x8, .f32⟩ : BufTy).Contents (Elt F) → (⟨S131072x8, .f32⟩ : BufTy).Contents (Elt F) → (⟨S131072x8, .f32⟩ : BufTy).Contents (Elt F)),
    nullary main_cst_5 (constant S_ .f32 0x43200000#32),
    unary main_cst_5 main_v34 (broadcastInDim S131072x8 ![] bcast_S_S131072x8 : (⟨S_, .f32⟩ : BufTy).Contents (Elt F) → (⟨S131072x8, .f32⟩ : BufTy).Contents (Elt F)),
    binary main_v33 main_v34 main_v35 (Host.divf : (⟨S131072x8, .f32⟩ : BufTy).Contents (Elt F) → (⟨S131072x8, .f32⟩ : BufTy).Contents (Elt F) → (⟨S131072x8, .f32⟩ : BufTy).Contents (Elt F)),
    nullary main_cst_6 (constant S_ .f32 0x3E4CCCCD#32),
    TRef.nullary main_call0.cst (constant S_ .f32 0x00000000#32),
    TRef.unary main_call0.cst main_call0.v0 (broadcastInDim S131072x8 ![] bcast_S_S131072x8),
    TRef.binary (.of main_v35 : TRef sig ⟨S131072x8, .f32⟩) main_call0.v0 main_call0.v1 (cmpf .oge),
    TRef.unary (.of main_cst_6 : TRef sig ⟨S_, .f32⟩) main_call0.v2 id,
    TRef.unary main_call0.v2 main_call0.v3 (broadcastInDim S131072x8 ![] bcast_S_S131072x8),
    TRef.binary main_call0.v3 (.of main_v35 : TRef sig ⟨S131072x8, .f32⟩) main_call0.v4 mulf,
    TRef.ternary main_call0.v1 (.of main_v35 : TRef sig ⟨S131072x8, .f32⟩) main_call0.v4 main_call0.call0.v0 select,
    unary main_v36 main_v37 (Host.exp : (⟨S131072x8, .f32⟩ : BufTy).Contents (Elt F) → (⟨S131072x8, .f32⟩ : BufTy).Contents (Elt F)),
    nullary main_cst_7 (constant S_ .f32 0x00000000#32),
    unary main_cst_7 main_v38 (broadcastInDim S16384x8 ![] bcast_S_S16384x8 : (⟨S_, .f32⟩ : BufTy).Contents (Elt F) → (⟨S16384x8, .f32⟩ : BufTy).Contents (Elt F)),
    unary main_v1 main_v39 (broadcastInDim S131072x1 ![0] bcast_S131072_S131072x1_0 : (⟨S131072, .i32⟩ : BufTy).Contents (Elt F) → (⟨S131072x1, .i32⟩ : BufTy).Contents (Elt F)),
    ternary main_v38 main_v39 main_v37 main_v40 ((fun x i u => Host.scatterAdd scatter_S16384x8_S131072x1_S131072x8_1_0_0_1 x i u) : (⟨S16384x8, .f32⟩ : BufTy).Contents (Elt F) → (⟨S131072x1, .i32⟩ : BufTy).Contents (Elt F) → (⟨S131072x8, .f32⟩ : BufTy).Contents (Elt F) → (⟨S16384x8, .f32⟩ : BufTy).Contents (Elt F)),
    unary main_v37 main_v41 (broadcastInDim S131072x8x1 ![0, 1] bcast_S131072x8_S131072x8x1_0_1 : (⟨S131072x8, .f32⟩ : BufTy).Contents (Elt F) → (⟨S131072x8x1, .f32⟩ : BufTy).Contents (Elt F)),
    unary main_v41 main_v42 (broadcastInDim S131072x8x64 ![0, 1, 2] bcast_S131072x8x1_S131072x8x64_0_1_2 : (⟨S131072x8x1, .f32⟩ : BufTy).Contents (Elt F) → (⟨S131072x8x64, .f32⟩ : BufTy).Contents (Elt F)),
    binary main_v42 main_v28 main_v43 (mulf : (⟨S131072x8x64, .f32⟩ : BufTy).Contents (Elt F) → (⟨S131072x8x64, .f32⟩ : BufTy).Contents (Elt F) → (⟨S131072x8x64, .f32⟩ : BufTy).Contents (Elt F)),
    nullary main_cst_8 (constant S_ .f32 0x00000000#32),
    unary main_cst_8 main_v44 (broadcastInDim S16384x8x64 ![] bcast_S_S16384x8x64 : (⟨S_, .f32⟩ : BufTy).Contents (Elt F) → (⟨S16384x8x64, .f32⟩ : BufTy).Contents (Elt F)),
    unary main_v1 main_v45 (broadcastInDim S131072x1 ![0] bcast_S131072_S131072x1_0 : (⟨S131072, .i32⟩ : BufTy).Contents (Elt F) → (⟨S131072x1, .i32⟩ : BufTy).Contents (Elt F)),
    ternary main_v44 main_v45 main_v43 main_v46 ((fun x i u => Host.scatterAdd scatter_S16384x8x64_S131072x1_S131072x8x64_12_0_0_1 x i u) : (⟨S16384x8x64, .f32⟩ : BufTy).Contents (Elt F) → (⟨S131072x1, .i32⟩ : BufTy).Contents (Elt F) → (⟨S131072x8x64, .f32⟩ : BufTy).Contents (Elt F) → (⟨S16384x8x64, .f32⟩ : BufTy).Contents (Elt F)),
    unary main_v40 main_v47 (broadcastInDim S16384x8x1 ![0, 1] bcast_S16384x8_S16384x8x1_0_1 : (⟨S16384x8, .f32⟩ : BufTy).Contents (Elt F) → (⟨S16384x8x1, .f32⟩ : BufTy).Contents (Elt F)),
    unary main_v47 main_v48 (broadcastInDim S16384x8x64 ![0, 1, 2] bcast_S16384x8x1_S16384x8x64_0_1_2 : (⟨S16384x8x1, .f32⟩ : BufTy).Contents (Elt F) → (⟨S16384x8x64, .f32⟩ : BufTy).Contents (Elt F)),
    binary main_v46 main_v48 main_v49 (Host.divf : (⟨S16384x8x64, .f32⟩ : BufTy).Contents (Elt F) → (⟨S16384x8x64, .f32⟩ : BufTy).Contents (Elt F) → (⟨S16384x8x64, .f32⟩ : BufTy).Contents (Elt F)),
    reshape main_v49 main_v50 rfl shapeCasts_S16384x8x64_S16384x512,
    binary main_v50 main_arg7 main_v51 ((fun l r => Host.dotGeneral dot_S16384x512_S512x64_S16384x64_1_0_0_1_n_n none l r) : (⟨S16384x512, .f32⟩ : BufTy).Contents (Elt F) → (⟨S512x64, .f32⟩ : BufTy).Contents (Elt F) → (⟨S16384x64, .f32⟩ : BufTy).Contents (Elt F)),
    unary main_arg8 main_v52 (broadcastInDim S1x64 ![1] bcast_S64_S1x64_1 : (⟨S64, .f32⟩ : BufTy).Contents (Elt F) → (⟨S1x64, .f32⟩ : BufTy).Contents (Elt F)),
    unary main_v52 main_v53 (broadcastInDim S16384x64 ![0, 1] bcast_S1x64_S16384x64_0_1 : (⟨S1x64, .f32⟩ : BufTy).Contents (Elt F) → (⟨S16384x64, .f32⟩ : BufTy).Contents (Elt F)),
    binary main_v51 main_v53 main_v54 (addf : (⟨S16384x64, .f32⟩ : BufTy).Contents (Elt F) → (⟨S16384x64, .f32⟩ : BufTy).Contents (Elt F) → (⟨S16384x64, .f32⟩ : BufTy).Contents (Elt F)) ]

-- seventy-two binds re-associated: the rewriting under the chain recurses once per statement
set_option maxRecDepth 4096 in
set_option maxHeartbeats 40000000 in
/-- @main is that straight line: the two windows and the two functions unfolded where they are called,
    both sides are one chain of steps once sequencing is re-associated. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub ..,
    unary_bufs_sub .., binary_bufs_sub .., binary_bufs_sub .., unary_bufs_sub .., unary_bufs_sub .., binary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., reshape_bufs_sub .., nullary_bufs_sub .., binary_bufs_sub .., nullary_bufs_sub ..,
    binary_bufs_sub .., binary_bufs_sub .., nullary_bufs_sub .., binary_bufs_sub .., binary_bufs_sub .., nullary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., unary_bufs_sub .., nullary_bufs_sub ..,
    unary_bufs_sub .., unary_bufs_sub .., ternary_bufs_sub .., unary_bufs_sub .., unary_bufs_sub .., binary_bufs_sub ..,
    nullary_bufs_sub .., unary_bufs_sub .., unary_bufs_sub .., ternary_bufs_sub .., unary_bufs_sub .., unary_bufs_sub ..,
    binary_bufs_sub .., reshape_bufs_sub .., binary_bufs_sub .., unary_bufs_sub .., unary_bufs_sub .., binary_bufs_sub ..⟩

attribute [local irreducible] Host.gather Host.scatterAdd Host.reduceAdd Host.exp in
set_option maxRecDepth 8192 in
set_option maxHeartbeats 4000000 in
/-- The fold read at the result buffer: each operation's value at its own buffer and every other buffer
    as it was, so the result buffer holds the composed term of the nine arguments. The gathers, the
    segment sums, the axis sums and the exponential stay folded while the two sides are compared: the
    equation never looks inside them. -/
theorem out_eq (V : Valuation τ sig (Elt F)) :
    after ops V (main_v54 : DevRef τ sig) = Term.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  after_results_simp
  rfl

set_option maxHeartbeats 4000000 in
/-- No operation writes an argument's buffer: each holds at the end what it held at the start. -/
theorem args_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig) := by
  refine ⟨?_, ?_, ?_, ?_, ?_, ?_, ?_, ?_, ?_⟩ <;> after_results_simp

/-- On the one device, for any float values, from any memory with zero counters: every weakly fair execution
    of @main terminates with the result buffer at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54) = Term.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
      obtain ⟨h0, h1, h2, h3, h4, h5, h6, h7, h8⟩ := args_eq (F := F) (launchContents m c)
      exact ⟨(h c main_v54).trans (out_eq _), (h c main_arg0).trans h0, (h c main_arg1).trans h1,
        (h c main_arg2).trans h2, (h c main_arg3).trans h3, (h c main_arg4).trans h4, (h c main_arg5).trans h5,
        (h c main_arg6).trans h6, (h c main_arg7).trans h7, (h c main_arg8).trans h8⟩)
    (run_seq scopedRefs_eq scopedSems_eq defs main (fun _ => ops) main_eq (fun _ => ops_sub) m ρ)

end Cert.ReferenceIdeal.Run

end
-- ==== Proof.IndexRange.lean ====
import proofs.«422085_j75196287418915_1_alg».proof.Pre_finite_inputs
import proofs.«422085_j75196287418915_1_alg».proof.Proof.Gen.Pre_finite_inputs
import proofs.«422085_j75196287418915_1_alg».proof.Proof.Gen.KernelIdeal
import proofs.«422085_j75196287418915_1_alg».proof.Proof.Gen.ReferenceIdeal
import proofs.«422085_j75196287418915_1_alg».proof.Proof.RefTerm
import proofs.«422085_j75196287418915_1_alg».proof.Proof.KernelTerm
import Idealize.ShloMosaic.Lib.ReduceAll
import Idealize.ShloMosaic.Lib.StableHlo.Predicate
import Idealize.ShloMosaic.Lib.ValueIdx

noncomputable section

namespace Cert.Index

open Idealize.ShloMosaic

/-- Every entry of the pair table is a node id: at least 0 and below 16384, as signed 32-bit integers. -/
def InRange (p : IVec (⟨2, ![131072, 2]⟩ : Shape) 32) : Prop :=
  ∀ i, (0#32).sle (p i) = true ∧ (p i).slt 16384#32 = true

/-! ### One id, as a signed 32-bit word

For a word `x` with `0 ≤ x < 16384` (signed): `x < 0` fails, so counting from the end leaves `x` as it
is; and `0 ≤ x`, `x ≤ 16383` both hold, so the range test's bit is 1. -/

private theorem toInt_0 : (0#32).toInt = 0 := by decide
private theorem toInt_16384 : (16384#32).toInt = 16384 := by decide
private theorem toInt_16383 : (16383#32).toInt = 16383 := by decide

/-- A word in range, read as an integer. -/
private theorem toInt_bounds {x : BitVec 32} (h0 : (0#32).sle x = true) (h1 : x.slt 16384#32 = true) :
    0 ≤ x.toInt ∧ x.toInt < 16384 := by
  have a := BitVec.sle_iff_toInt_le.1 h0
  have b := BitVec.slt_iff_toInt_lt.1 h1
  rw [toInt_0] at a
  rw [toInt_16384] at b
  exact ⟨a, b⟩

/-- A word in range is not negative, so it is kept as it is rather than counted from the end. -/
private theorem wrap_word {x : BitVec 32} (h0 : (0#32).sle x = true) (h1 : x.slt 16384#32 = true) :
    Scalar.select (IntOp.cmpi .slt x 0#32) (IntOp.addi x 16384#32) x = x := by
  obtain ⟨a, _⟩ := toInt_bounds h0 h1
  have hb : x.slt 0#32 = false := by
    rw [BitVec.slt_eq_decide, toInt_0, decide_eq_false_iff_not]
    omega
  have hc : IntOp.cmpi .slt x 0#32 = 0#1 := by
    show BitVec.ofBool (x.slt 0#32) = 0#1
    rw [hb]; rfl
  rw [hc, ValueIdx.select_zero]

/-- A word in range passes the test `0 ≤ x ∧ x ≤ 16383`. -/
private theorem mask_word {x : BitVec 32} (h0 : (0#32).sle x = true) (h1 : x.slt 16384#32 = true) :
    IntOp.andi (IntOp.cmpi .sge x 0#32) (IntOp.cmpi .sle x 16383#32) = 1#1 := by
  obtain ⟨a, b⟩ := toInt_bounds h0 h1
  refine IntOp.andi_eq_one.2 ⟨IntOp.cmpi_sge.2 ?_, IntOp.cmpi_sle.2 ?_⟩
  · rw [toInt_0]; exact a
  · rw [toInt_16383]; omega

/-! ### An and-reduction of ones is one -/

private theorem foldl_and_ones {ι : Type} (f : ι → BitVec 1) (l : List ι) (hl : ∀ n ∈ l, f n = 1#1) :
    l.foldl (fun r n => IntOp.andi r (f n)) 1#1 = 1#1 := by
  induction l with
  | nil => rfl
  | cons a l ih =>
    have ha : f a = 1#1 := hl a List.mem_cons_self
    have h1 : IntOp.andi 1#1 (f a) = 1#1 := by rw [ha]; decide
    rw [List.foldl_cons, h1]
    exact ih fun n hn => hl n (List.mem_cons_of_mem _ hn)

/-- A reduction by `and` from 1 over an array of ones is 1 at every result index. -/
private theorem reduce_and_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_and_ones x _ fun n _ => hx n

variable {F : FTy → Type} [FloatOps F]

/-! ### The precondition's last conjunct: every entry of the pair table is in range -/

private instance : Subsingleton Cert.Pre_finite_inputs.S_.Idx := ⟨fun a b => funext fun d => d.elim0⟩

theorem inRange_of_pre
    (a0 : FVec F Cert.Pre_finite_inputs.S16384x64 .f32) (a1 : FVec F Cert.Pre_finite_inputs.S131072x32 .f32) (a2 : IVec Cert.Pre_finite_inputs.S131072x2 32)
    (a3 : FVec F Cert.Pre_finite_inputs.S64x512 .f32) (a4 : FVec F Cert.Pre_finite_inputs.S512 .f32) (a5 : FVec F Cert.Pre_finite_inputs.S32x256 .f32)
    (a6 : FVec F Cert.Pre_finite_inputs.S256 .f32) (a7 : FVec F Cert.Pre_finite_inputs.S512x64 .f32) (a8 : FVec F Cert.Pre_finite_inputs.S64 .f32)
    (h : Cert.Pre_finite_inputs.fn (F := F) a0 a1 a2 a3 a4 a5 a6 a7 a8 = fun _ => 1#1) : InRange a2 := by
  intro i
  -- the whole conjunction at its one index
  have e := congrFun h ValueIdx.ix0
  dsimp only [Cert.Pre_finite_inputs.fn, Cert.Pre_finite_inputs.fn_part1, Cert.Pre_finite_inputs.fn_part2] at e
  -- its last conjunct: the and-reduction, over both axes, of the two comparisons
  obtain ⟨-, e44⟩ := IntOp.andi_eq_one.1 e
  -- every entry's bit
  have ei := Host.reduce_andi_all _ _ _ _ _ e44 i
  obtain ⟨ege, elt⟩ := IntOp.andi_eq_one.1 ei
  -- the two comparisons at entry i, against the constants 0 and 16384
  have ege' : BitVec.ofBool ((0#32).sle (a2 i)) = 1#1 := ege
  have elt' : BitVec.ofBool ((a2 i).slt 16384#32) = 1#1 := elt
  exact ⟨(StableHlo.Predicate.ofBool_eq_one_iff _).1 ege', (StableHlo.Predicate.ofBool_eq_one_iff _).1 elt'⟩

/-! ### The two programs spell the same columns -/

theorem col0_eq (p : IVec (⟨2, ![131072, 2]⟩ : Shape) 32) : Cert.KernelIdeal.Term.col0 p = Cert.ReferenceIdeal.Term.col0 p := by
  rfl

theorem col1_eq (p : IVec (⟨2, ![131072, 2]⟩ : Shape) 32) : Cert.KernelIdeal.Term.col1 p = Cert.ReferenceIdeal.Term.col1 p := by
  rfl

/-! ### The kernel's guarded lookup is the reference's plain lookup when every id is in range -/

/-- With every id in range the range test is 1 at every id. -/
private theorem inRange_ones (i : IVec (⟨1, ![131072]⟩ : Shape) 32)
    (hi : ∀ k, (0#32).sle (i k) = true ∧ (i k).slt 16384#32 = true) (k : (⟨1, ![131072]⟩ : Shape).Idx) :
    Cert.KernelIdeal.Term.inRange i k = 1#1 := by
  unfold Cert.KernelIdeal.Term.inRange
  refine reduce_and_ones _ _ _ _ (fun _ => rfl) (fun q => ?_) k
  -- at an entry q of the one-column table: the id there, kept as it is, passes the test
  obtain ⟨k', hk'⟩ : ∃ k', Cert.KernelIdeal.Term.wrap i q =
      Scalar.select (IntOp.cmpi .slt (i k') 0#32) (IntOp.addi (i k') 16384#32) (i k') := ⟨_, rfl⟩
  show IntOp.andi (IntOp.cmpi .sge (Cert.KernelIdeal.Term.wrap i q) 0#32)
      (IntOp.cmpi .sle (Cert.KernelIdeal.Term.wrap i q) 16383#32) = 1#1
  rw [hk', wrap_word (hi k').1 (hi k').2]
  exact mask_word (hi k').1 (hi k').2

/-- The guarded lookup at ids that are all in range is the plain lookup. -/
private theorem take_eq_rows (h : FVec F (⟨2, ![16384, 512]⟩ : Shape) .f32) (i : IVec (⟨1, ![131072]⟩ : Shape) 32)
    (hi : ∀ k, (0#32).sle (i k) = true ∧ (i k).slt 16384#32 = true) :
    Cert.KernelIdeal.Term.take h i = Cert.ReferenceIdeal.Term.rows h i := by
  funext j
  unfold Cert.KernelIdeal.Term.take
  rw [ValueIdx.select_apply]
  have hm : broadcastInDim Cert.KernelIdeal.S131072x512 ![0] Cert.KernelIdeal.Facts₀.bcast_S131072_S131072x512_0
      (Cert.KernelIdeal.Term.inRange i) j = 1#1 := inRange_ones i hi _
  rw [hm, ValueIdx.select_one]
  rfl

theorem take_col0 (h : FVec F (⟨2, ![16384, 512]⟩ : Shape) .f32) (p : IVec (⟨2, ![131072, 2]⟩ : Shape) 32) (hp : InRange p) :
    Cert.KernelIdeal.Term.take h (Cert.KernelIdeal.Term.col0 p) = Cert.ReferenceIdeal.Term.rows h (Cert.ReferenceIdeal.Term.col0 p) := by
  rw [col0_eq]
  exact take_eq_rows h _ fun k => hp _

theorem take_col1 (h : FVec F (⟨2, ![16384, 512]⟩ : Shape) .f32) (p : IVec (⟨2, ![131072, 2]⟩ : Shape) 32) (hp : InRange p) :
    Cert.KernelIdeal.Term.take h (Cert.KernelIdeal.Term.col1 p) = Cert.ReferenceIdeal.Term.rows h (Cert.ReferenceIdeal.Term.col1 p) := by
  rw [col1_eq]
  exact take_eq_rows h _ fun k => hp _

end Cert.Index

end
-- ==== Proof.RefValue.lean ====
/-
  The reference's three dense layers, read index by index over the extended reals.
  A linear layer `x · w + b` at (r, t) is Σ_c x[r, c] · w[c, t] + b[t]: the host's product is the row-by-column sum, and
  the bias vector, laid out as one row and copied down the rows, contributes its entry t, which is also what its
  reshape to a one-row matrix reads at (0, t).
  The edge layer reshapes the [131072, 256] projected channels to [131072, 8, 32] — entry (e, h, d) is channel 32 h + d of
  edge e, since both sit at row-major position 256 e + 32 h + d — and sums the last axis from the initial value 0.
-/
import proofs.«422085_j75196287418915_1_alg».proof.Proof.Gen.ReferenceIdeal
import proofs.«422085_j75196287418915_1_alg».proof.Proof.RefTerm
import proofs.«422085_j75196287418915_1_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember
import Idealize.ShloMosaic.Lib.IdealHost
import Idealize.ShloMosaic.PureOps.Ideal.Laws

noncomputable section

namespace Cert.ReferenceIdeal.RefValue

open Idealize.ShloMosaic Idealize.ShloMosaic.ValueIdx Cert.ReferenceIdeal Cert.ReferenceIdeal.Gen

/-! ## A bias vector laid along every row -/

/-- A vector of `n` entries made a one-row matrix by a broadcast along axis 1 reads its entry `t` at (0, t). -/
theorem rowOf_apply {n : Nat} (b : FVec Ideal ⟨1, ![n]⟩ .f32)
    (h1 : (⟨1, ![n]⟩ : Shape).BroadcastsInDim ⟨2, ![1, n]⟩ ![1]) (t : Fin n) :
    broadcastInDim ⟨2, ![1, n]⟩ ![1] h1 b (ix2 (0 : Fin 1) t) = b (ix1 t) := by
  refine broadcastInDim_apply ![1] h1 b (ix2 (0 : Fin 1) t) (ix1 t) ?_
  intro a
  match a with
  | ⟨0, _⟩ =>
    show t.val = if n = 1 then 0 else t.val
    split
    · have := t.isLt; omega
    · rfl

/-- The same vector reshaped to a one-row matrix reads the same entry there: position t in both row-major orders. -/
theorem rowCast_apply {n : Nat} (b : FVec Ideal ⟨1, ![n]⟩ .f32)
    (hc : (⟨1, ![n]⟩ : Shape).ShapeCasts ⟨2, ![1, n]⟩) (t : Fin n) :
    shapeCast ⟨2, ![1, n]⟩ b hc (ix2 (0 : Fin 1) t) = b (ix1 t) := by
  refine shapeCast_apply b hc (ix2 (0 : Fin 1) t) (ix1 t) ?_
  rw [Shape.rowMajor_val_two, Shape.rowMajor_val_one]
  show t.val = 0 * n + t.val
  omega

/-! ## A linear layer at an index -/

/-- `x · w + b` at (r, t): the row-by-column sum plus the bias row's entry, the bias written as its one-row reshape. -/
theorem linear_apply {m k n : Nat} (x : FVec Ideal ⟨2, ![m, k]⟩ .f32) (w : FVec Ideal ⟨2, ![k, n]⟩ .f32)
    (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1])
    (hc : (⟨1, ![n]⟩ : Shape).ShapeCasts ⟨2, ![1, n]⟩) (r : Fin m) (t : Fin n) :
    addf (Host.dotGeneral (F := Ideal) (DotDims.plain m k n) none x w)
        (broadcastInDim ⟨2, ![m, n]⟩ ![0, 1] h2 (broadcastInDim ⟨2, ![1, n]⟩ ![1] h1 b)) (ix2 r t)
      = (∑ c : Fin k, x (ix2 r c) * w (ix2 c t)) + shapeCast ⟨2, ![1, n]⟩ b hc (ix2 (0 : Fin 1) t) := by
  rw [addf_apply, StackMember.dotGeneral_plain_apply, broadcastInDim_oneRow_apply, rowOf_apply, rowCast_apply]

/-! ## The reference's dimension records are the plain products' -/

theorem dot_hid_eq : dot_S16384x64_S64x512_S16384x512_1_0_0_1_n_n = DotDims.plain 16384 64 512 := rfl
theorem dot_edge_eq : dot_S131072x32_S32x256_S131072x256_1_0_0_1_n_n = DotDims.plain 131072 32 256 := rfl
theorem dot_proj_eq : dot_S16384x512_S512x64_S16384x64_1_0_0_1_n_n = DotDims.plain 16384 512 64 := rfl

theorem hid_eq (a0 : FVec Ideal S16384x64 .f32) (a3 : FVec Ideal S64x512 .f32) (a4 : FVec Ideal S512 .f32)
    (hc : S512.ShapeCasts S1x512) :
    Term.hid a0 a3 a4 = Cert.Spec.lin0 a0 a3 (shapeCast S1x512 a4 hc) := by
  funext j
  obtain ⟨r, t, rfl⟩ : ∃ (r : Fin 16384) (t : Fin 512), j = ix2 r t := ⟨j 0, j 1, eq_ix2 j⟩
  unfold Term.hid
  rw [dot_hid_eq]
  exact linear_apply a0 a3 a4 _ _ hc r t

/-! ## The edge layer: the heads' channels, and their sums -/

/-- The [131072, 256] channels reshaped to [131072, 8, 32]: entry (e, h, d) is channel 32 h + d of edge e, both at
    row-major position 256 e + 32 h + d. -/
theorem heads_apply (y : FVec Ideal S131072x256 .f32) (hs : S131072x256.ShapeCasts S131072x8x32)
    (e : Fin 131072) (h : Fin 8) (d : Fin 32) :
    shapeCast S131072x8x32 y hs (ix3 e h d) = y (ix2 e (Cert.Spec.chan h d)) := by
  refine shapeCast_apply y hs (ix3 e h d) (ix2 e (Cert.Spec.chan h d)) ?_
  rw [Shape.rowMajor_val_two, Shape.rowMajor_val_three]
  show e.val * 256 + (32 * h.val + d.val) = (e.val * 8 + h.val) * 32 + d.val
  omega

/-- A [131072, 8, 32] array summed over its last axis from the initial value 0, read at (e, h): the sum over d of its
    entries (e, h, d). -/
theorem headSum_apply (z : FVec Ideal S131072x8x32 .f32) (hr' : S131072x8x32.ReducesTo [2] S131072x8)
    (hu : 0 < S_.numel) (e : Fin 131072) (h : Fin 8) :
    Host.reduceAdd (F := Ideal) z (constant (F := Ideal) S_ .f32 0x00000000#32) hr' hu (ix2 e h)
      = ∑ d : Fin 32, z (ix3 e h d) := by
  have hr : S131072x8x32.Reduces [2] S131072x8 := by decide
  rw [hostReduceAdd_apply, Ideal.hostReduceAdd_single hr' hr, constant_apply, Ideal.ofBits_zero_f32, zero_add]
  refine Finset.sum_congr rfl fun d _ => congrArg z ?_
  funext c
  match c with
  | ⟨0, _⟩ => rfl
  | ⟨1, _⟩ => rfl
  | ⟨2, _⟩ => rfl

theorem esum_eq (a1 : FVec Ideal S131072x32 .f32) (a5 : FVec Ideal S32x256 .f32) (a6 : FVec Ideal S256 .f32)
    (hc : S256.ShapeCasts S1x256) :
    Term.esum a1 a5 a6 = Cert.Spec.edge a1 a5 (shapeCast S1x256 a6 hc) := by
  funext j
  obtain ⟨e, h, rfl⟩ : ∃ (e : Fin 131072) (h : Fin 8), j = ix2 e h := ⟨j 0, j 1, eq_ix2 j⟩
  unfold Term.esum Cert.Spec.edge Cert.Spec.edgeAt
  rw [dot_edge_eq, headSum_apply]
  refine Finset.sum_congr rfl fun d _ => ?_
  rw [heads_apply]
  exact linear_apply a1 a5 a6 _ _ hc e (Cert.Spec.chan h d)

theorem proj_eq (g : FVec Ideal S16384x512 .f32) (a7 : FVec Ideal S512x64 .f32) (a8 : FVec Ideal S64 .f32)
    (hc : S64.ShapeCasts S1x64) :
    Term.proj g a7 a8 = Cert.Spec.lin2 g a7 (shapeCast S1x64 a8 hc) := by
  funext j
  obtain ⟨r, t, rfl⟩ : ∃ (r : Fin 16384) (t : Fin 64), j = ix2 r t := ⟨j 0, j 1, eq_ix2 j⟩
  unfold Term.proj
  rw [dot_proj_eq]
  exact linear_apply g a7 a8 _ _ hc r t

end Cert.ReferenceIdeal.RefValue

end
-- ==== Proof.Bridge.lean ====
/-
  The kernel's result and the reference's are one function of the arguments wherever every entry of the pair
  table is a node id. There the kernel's row lookups replace no row (each id is inside the table), so they are
  the reference's plain gathers; the node projection, the per-head edge sums and the output projection are the
  same sums on both sides (a matrix product plus a bias; for the edge layer each head's 32 channels summed);
  everything between them is the same arithmetic, term for term.
-/
import proofs.«422085_j75196287418915_1_alg».proof.Proof.KernelOut
import proofs.«422085_j75196287418915_1_alg».proof.Proof.RefValue
import proofs.«422085_j75196287418915_1_alg».proof.Proof.IndexRange

noncomputable section

namespace Cert.Bridge

open Idealize.ShloMosaic

/-- With every id in range, the kernel's result term is the reference's. -/
theorem outK_eq_out
    (a0 : FVec Ideal (⟨2, ![16384, 64]⟩ : Shape) .f32) (a1 : FVec Ideal (⟨2, ![131072, 32]⟩ : Shape) .f32)
    (a2 : IVec (⟨2, ![131072, 2]⟩ : Shape) 32) (a3 : FVec Ideal (⟨2, ![64, 512]⟩ : Shape) .f32)
    (a4 : FVec Ideal (⟨1, ![512]⟩ : Shape) .f32) (a5 : FVec Ideal (⟨2, ![32, 256]⟩ : Shape) .f32)
    (a6 : FVec Ideal (⟨1, ![256]⟩ : Shape) .f32) (a7 : FVec Ideal (⟨2, ![512, 64]⟩ : Shape) .f32)
    (a8 : FVec Ideal (⟨1, ![64]⟩ : Shape) .f32) (hp : Cert.Index.InRange a2) :
    Cert.KernelIdeal.Term.outK a0 a1 a2 a3 a4 a5 a6 a7 a8 = Cert.ReferenceIdeal.Term.out (F := Ideal) a0 a1 a2 a3 a4 a5 a6 a7 a8 := by
  unfold Cert.KernelIdeal.Term.outK Cert.ReferenceIdeal.Term.out Cert.KernelIdeal.Term.hidK Cert.KernelIdeal.Term.esumK
  rw [Cert.Index.take_col0 _ _ hp, Cert.Index.take_col1 _ _ hp, Cert.Index.col0_eq,
    ← Cert.ReferenceIdeal.RefValue.hid_eq a0 a3 a4, ← Cert.ReferenceIdeal.RefValue.esum_eq a1 a5 a6,
    ← Cert.ReferenceIdeal.RefValue.proj_eq _ a7 a8]

end Cert.Bridge

end
-- ==== Proof.lean ====
/-
  The certificate of the graph-attention layer against its array reference, over the extended reals.

  The kernel computes the node projection h = x·W + b and the output projection with one tiled linear layer
  (8 row blocks of 2048), and the per-head edge sums with a second layer that projects 4096 edges at a time and
  sums each head's 32 channels; between them it looks rows of h up at the receiver and sender ids, forms the
  attention weights exp(leaky_relu(mean)), sums them and the weighted sender rows over each receiver, and divides.
  The reference does the same with whole-array operations. The two differ in one place: the kernel's row lookup
  replaces a row whose id falls outside the node table by a fill pattern, where the reference's indexing clamps the
  id. Every entry of the pair table being a node id (0 ≤ id < 16384) is therefore part of the precondition; under it
  no row is replaced and both programs compute one function (Bridge).

  The three frames: the kernel's two are the generated frame certificates; the reference's is its run with the
  result dropped. The idealization rewrote nothing, so its claim is trivial.
-/
import proofs.«422085_j75196287418915_1_alg».proof.Defs
import proofs.«422085_j75196287418915_1_alg».proof.Proof.Gen.Kernel
import proofs.«422085_j75196287418915_1_alg».proof.Proof.Gen.Kernel.Frame
import proofs.«422085_j75196287418915_1_alg».proof.Proof.Gen.KernelIdeal
import proofs.«422085_j75196287418915_1_alg».proof.Proof.Gen.KernelIdeal.Frame
import proofs.«422085_j75196287418915_1_alg».proof.Proof.Gen.ReferenceIdeal
import proofs.«422085_j75196287418915_1_alg».proof.Proof.Gen.Pre_finite_inputs
import proofs.«422085_j75196287418915_1_alg».proof.Proof.KernelRun
import proofs.«422085_j75196287418915_1_alg».proof.Proof.KernelFold
import proofs.«422085_j75196287418915_1_alg».proof.Proof.RefRun
import proofs.«422085_j75196287418915_1_alg».proof.Proof.IndexRange
import proofs.«422085_j75196287418915_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, keeping only that the arguments end as launched. -/
theorem frame_referenceIdeal : Cert.frame_ReferenceIdeal := fun m ρ _ =>
  (θ_run Cert.ReferenceIdeal.defs _ _).mono (fun _ h c => (h c).2) (Cert.ReferenceIdeal.Run.run (F := Ideal) m ρ)

theorem preserves : Cert.preserves_Kernel_KernelIdeal := trivial

/-- Both programs end with the result array at the reference's term of the arguments: the kernel's run leaves the
    last region's write-backs there, which are the kernel's term (the fold through the three regions and the host
    operations between them), and that is the reference's term because the precondition puts every id in range. -/
theorem algebraic : Cert.algebraic_KernelIdeal_ReferenceIdeal := by
  intro m ρ m' ρ' hpre hagree
  have hidx : ∀ c : Dev Cert.KernelIdeal.nD, Cert.Index.InRange (m ((c.tc : Thread Cert.KernelIdeal.nD Cert.KernelIdeal.τ).loc Cert.KernelIdeal.main_arg2)) :=
    fun c => Cert.Index.inRange_of_pre _ _ _ _ _ _ _ _ _ (hpre c)
  refine ⟨fun c => Cert.ReferenceIdeal.Term.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩) (Cert.KernelIdeal.Run.run_result (F := Ideal) m ρ)
    exact (Cert.KernelIdeal.Fold.result_eq m ρ c).trans (Cert.Bridge.outK_eq_out _ _ _ _ _ _ _ _ _ (hidx c))
  · refine (θ_run Cert.ReferenceIdeal.defs _ _).mono (fun r h c => ⟨(h c).1.trans ?_, (h c).2⟩) (Cert.ReferenceIdeal.Run.run (F := Ideal) m' ρ')
    obtain ⟨e0, e1, e2, e3, e4, e5, e6, e7, e8⟩ := hagree c
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
